-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x500000 : Shape := ⟨2, ![2, 500000]⟩
abbrev S512x128 : Shape := ⟨2, ![512, 128]⟩
abbrev S128x128 : Shape := ⟨2, ![128, 128]⟩
abbrev S128 : Shape := ⟨1, ![128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg0 main_v44
  let main_c_17 : IVec S_ 32 := constantI S_ 32 512#32
  let main_v46 : IVec S50000 32 := broadcastInDim S50000 ![] bcast_S_S50000 main_c_17
  let main_v47 : IVec S50000 1 := cmpi .slt main_arg0 main_v46
  let main_v48 : IVec S50000 1 := andi main_v45 main_v47
  let main_c_18 : IVec S_ 1 := constantI S_ 1 1#1
  let main_v49 : IVec S_ 1 := (fun x v => Host.reduce IntOp.andi x v reducesTo_S50000_S_d0 h_S_) main_v48 main_c_18
  let main_v50 : IVec S_ 1 := andi main_v43 main_v49
  main_v50

def fn_part1 {F : FTy → Type} [FloatOps F] (main_arg0 : IVec S50000 32) (main_arg6 : FVec F S128 .f32) (main_arg7 : FVec F S128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg9 main_arg10 main_v33

def fn {F : FTy → Type} [FloatOps F] (main_arg0 : IVec S50000 32) (main_arg1 : IVec S2x500000 32) (main_arg2 : FVec F S512x128 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) : IVec S_ 1 :=
  let main_v0 : FVec F S512x128 .f32 := Host.absf main_arg2
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg6 main_arg7 main_arg8 main_arg9 main_arg10 main_v13 main_v16
-- ==== Kernel.lean ====
abbrev S50000 : Shape := ⟨1, ![50000]⟩
abbrev S2x500000 : Shape := ⟨2, ![2, 500000]⟩
abbrev S512x128 : Shape := ⟨2, ![512, 128]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x1 : Shape := ⟨2, ![50000, 1]⟩
abbrev S50000x128 : Shape := ⟨2, ![50000, 128]⟩
abbrev S5000x1 : Shape := ⟨2, ![5000, 1]⟩
abbrev S5000x128 : Shape := ⟨2, ![5000, 128]⟩
abbrev S1x512 : Shape := ⟨2, ![1, 512]⟩
abbrev S5000x512 : Shape := ⟨2, ![5000, 512]⟩
abbrev S550000x128 : Shape := ⟨2, ![550000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 88
  | .vmem => 33
  | .smem => 0
  | _ => 0

abbrev bufTy : (tb : Table) → Fin (tcTables nBuf tb) → BufTy
  | .hbm, ⟨0, _⟩ => ⟨S50000, .i32⟩
  | .hbm, ⟨1, _⟩ => ⟨S2x500000, .i32⟩
  | .hbm, ⟨2, _⟩ => ⟨S512x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S50000, .i32⟩
  | .hbm, ⟨16, _⟩ => ⟨S550000, .i32⟩
  | .hbm, ⟨17, _⟩ => ⟨S550000, .i32⟩
  | .hbm, ⟨18, _⟩ => ⟨S_, .f32⟩
  | .hbm, ⟨19, _⟩ => ⟨S550000, .f32⟩
  | .hbm, ⟨20, _⟩ => ⟨S_, .f32⟩
  | .hbm, ⟨21, _⟩ => ⟨S50000, .f32⟩
  | .hbm, ⟨22, _⟩ => ⟨S550000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S550000, .i32⟩
  | .hbm, ⟨27, _⟩ => ⟨S550000, .i1⟩
  | .hbm, ⟨28, _⟩ => ⟨S_, .i32⟩
  | .hbm, ⟨29, _⟩ => ⟨S550000, .i32⟩
  | .hbm, ⟨30, _⟩ => ⟨S550000, .i32⟩
  | .hbm, ⟨31, _⟩ => ⟨S550000, .i32⟩
  | .hbm, ⟨32, _⟩ => ⟨S550000x1, .i32⟩
  | .hbm, ⟨33, _⟩ => ⟨S550000, .f32⟩
  | .hbm, ⟨34, _⟩ => ⟨S_, .i32⟩
  | .hbm, ⟨35, _⟩ => ⟨S550000, .i32⟩
  | .hbm, ⟨36, _⟩ => ⟨S550000, .i1⟩
  | .hbm, ⟨37, _⟩ => ⟨S_, .i32⟩
  | .hbm, ⟨38, _⟩ => ⟨S550000, .i32⟩
  | .hbm, ⟨39, _⟩ => ⟨S550000, .i32⟩
  | .hbm, ⟨40, _⟩ => ⟨S550000, .i32⟩
  | .hbm, ⟨41, _⟩ => ⟨S550000x1, .i32⟩
  | .hbm, ⟨42, _⟩ => ⟨S550000, .f32⟩
  | .hbm, ⟨43, _⟩ => ⟨S550000, .f32⟩
  | .hbm, ⟨44, _⟩ => ⟨S50000x1, .i32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S550000, .i32⟩
  | .hbm, ⟨49, _⟩ => ⟨S550000, .i1⟩
  | .hbm, ⟨50, _⟩ => ⟨S_, .i32⟩
  | .hbm, ⟨51, _⟩ => ⟨S550000, .i32⟩
  | .hbm, ⟨52, _⟩ => ⟨S550000, .i32⟩
  | .hbm, ⟨53, _⟩ => ⟨S550000, .i32⟩
  | .hbm, ⟨54, _⟩ => ⟨S550000x1, .i32⟩
  | .hbm, ⟨55, _⟩ => ⟨S550000x128, .f32⟩
  | .hbm, ⟨56, _⟩ => ⟨S550000x1, .f32⟩
  | .hbm, ⟨57, _⟩ => ⟨S550000x128, .f32⟩
  | .hbm, ⟨58, _⟩ => ⟨S550000x128, .f32⟩
  | .hbm, ⟨59, _⟩ => ⟨S_, .f32⟩
  | .hbm, ⟨60, _⟩ => ⟨S50000x128, .f32⟩
  | .hbm, ⟨61, _⟩ => ⟨S550000x1, .i32⟩
  | .hbm, ⟨62, _⟩ => ⟨S50000x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S550000, .i32⟩
  | .hbm, ⟨70, _⟩ => ⟨S550000, .i1⟩
  | .hbm, ⟨71, _⟩ => ⟨S_, .i32⟩
  | .hbm, ⟨72, _⟩ => ⟨S550000, .i32⟩
  | .hbm, ⟨73, _⟩ => ⟨S550000, .i32⟩
  | .hbm, ⟨74, _⟩ => ⟨S550000, .i32⟩
  | .hbm, ⟨75, _⟩ => ⟨S550000x1, .i32⟩
  | .hbm, ⟨76, _⟩ => ⟨S550000x128, .f32⟩
  | .hbm, ⟨77, _⟩ => ⟨S550000x1, .f32⟩
  | .hbm, ⟨78, _⟩ => ⟨S550000x128, .f32⟩
  | .hbm, ⟨79, _⟩ => ⟨S550000x128, .f32⟩
  | .hbm, ⟨80, _⟩ => ⟨S_, .f32⟩
  | .hbm, ⟨81, _⟩ => ⟨S50000x128, .f32⟩
  | .hbm, ⟨82, _⟩ => ⟨S550000x1, .i32⟩
  | .hbm, ⟨83, _⟩ => ⟨S50000x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S50000x128, .f32⟩
  | .local _ .vmem, ⟨0, _⟩ => ⟨S5000x1, .i32⟩
  | .local _ .vmem, ⟨1, _⟩ => ⟨S5000x1, .i32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem5_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S5000x512_S512x128_S5000x128_1_0_0_1_n_n_wf : DotDims.WF S5000x512 S512x128 S5000x128 [1] [0] [0] [1] [] []
  dot_S5000x128_S128x128_S5000x128_1_0_0_1_n_n_wf : DotDims.WF S5000x128 S128x128 S5000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

abbrev win0_0 : Pipeline.Window sig grid0 :=
  Pipeline.Window.ofSpec (Memref.whole main_v27) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000 : Shape := ⟨1, ![50000]⟩
abbrev S2x500000 : Shape := ⟨2, ![2, 500000]⟩
abbrev S512x128 : Shape := ⟨2, ![512, 128]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S50000x1 : Shape := ⟨2, ![50000, 1]⟩
abbrev S50000x128 : Shape := ⟨2, ![50000, 128]⟩
abbrev S550000 : Shape := ⟨1, ![550000]⟩
abbrev S550000x1 : Shape := ⟨2, ![550000, 1]⟩
abbrev S550000x128 : Shape := ⟨2, ![550000, 128]⟩
abbrev S1x128 : Shape := ⟨2, ![1, 128]⟩

abbrev nBuf : Space → Nat
  | .hbm => 182
  | .vmem => 0
  | .smem => 0
  | _ => 0

abbrev hbmTy0_0 (i : Nat) : BufTy := match i % 128 with
  | 0 => ⟨S50000, .i32⟩
  | 1 => ⟨S2x500000, .i32⟩
  | 2 => ⟨S512x128, .f32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S1x500000, .i32⟩
  | 12 => ⟨S500000, .i32⟩
  | 13 => ⟨S1x500000, .i32⟩
  | 14 => ⟨S500000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S50000, .i32⟩
  | 25 => ⟨S550000, .i32⟩
  | 26 => ⟨S550000, .i32⟩
  | 27 => ⟨S_, .f32⟩
  | 28 => ⟨S550000, .f32⟩
  | 29 => ⟨S_, .f32⟩
  | 30 => ⟨S50000, .f32⟩
  | 31 => ⟨S550000x1, .i32⟩
  | 32 => ⟨S50000, .f32⟩
  | 33 => ⟨S50000, .f32⟩
  | 34 => ⟨S_, .i32⟩
  | 35 => ⟨S550000, .i32⟩
  | 36 => ⟨S550000, .i1⟩
  | 37 => ⟨S_, .i32⟩
  | 38 => ⟨S550000, .i32⟩
  | 39 => ⟨S550000, .i32⟩
  | 40 => ⟨S550000, .i32⟩
  | 41 => ⟨S550000x1, .i32⟩
  | 42 => ⟨S550000, .f32⟩
  | 43 => ⟨S_, .i32⟩
  | 44 => ⟨S550000, .i32⟩
  | 45 => ⟨S550000, .i1⟩
  | 46 => ⟨S_, .i32⟩
  | 47 => ⟨S550000, .i32⟩
  | 48 => ⟨S550000, .i32⟩
  | 49 => ⟨S550000, .i32⟩
  | 50 => ⟨S550000x1, .i32⟩
  | 51 => ⟨S550000, .f32⟩
  | 52 => ⟨S550000, .f32⟩
  | 53 => ⟨S50000x128, .f32⟩
  | 54 => ⟨S_, .i32⟩
  | 55 => ⟨S550000, .i32⟩
  | 56 => ⟨S550000, .i1⟩
  | 57 => ⟨S_, .i32⟩
  | 58 => ⟨S550000, .i32⟩
  | 59 => ⟨S550000, .i32⟩
  | 60 => ⟨S550000, .i32⟩
  | 61 => ⟨S550000x1, .i32⟩
  | 62 => ⟨S550000x128, .f32⟩
  | 63 => ⟨S550000x1, .f32⟩
  | 64 => ⟨S550000x128, .f32⟩
  | 65 => ⟨S550000x128, .f32⟩
  | 66 => ⟨S_, .f32⟩
  | 67 => ⟨S50000x128, .f32⟩
  | 68 => ⟨S550000x1, .i32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S50000, .f32⟩
  | 76 => ⟨S50000x1, .f32⟩
  | 77 => ⟨S_, .f32⟩
  | 78 => ⟨S50000x1, .f32⟩
  | 79 => ⟨S50000x1, .f32⟩
  | 80 => ⟨S50000x128, .f32⟩
  | 81 => ⟨S50000x128, .f32⟩
  | 82 => ⟨S50000x128, .f32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x128, .f32⟩
  | 90 => ⟨S50000x128, .f32⟩
  | 91 => ⟨S_, .f32⟩
  | 92 => ⟨S50000x1, .f32⟩
  | 93 => ⟨S50000x1, .f32⟩
  | 94 => ⟨S50000x1, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000, .i32⟩
  | 104 => ⟨S550000, .i32⟩
  | 105 => ⟨S550000, .i32⟩
  | 106 => ⟨S_, .f32⟩
  | 107 => ⟨S550000, .f32⟩
  | 108 => ⟨S_, .f32⟩
  | 109 => ⟨S50000, .f32⟩
  | 110 => ⟨S550000x1, .i32⟩
  | 111 => ⟨S50000, .f32⟩
  | 112 => ⟨S50000, .f32⟩
  | 113 => ⟨S_, .i32⟩
  | 114 => ⟨S550000, .i32⟩
  | 115 => ⟨S550000, .i1⟩
  | 116 => ⟨S_, .i32⟩
  | 117 => ⟨S550000, .i32⟩
  | 118 => ⟨S550000, .i32⟩
  | 119 => ⟨S550000, .i32⟩
  | 120 => ⟨S550000x1, .i32⟩
  | 121 => ⟨S550000, .f32⟩
  | 122 => ⟨S_, .i32⟩
  | 123 => ⟨S550000, .i32⟩
  | 124 => ⟨S550000, .i1⟩
  | 125 => ⟨S_, .i32⟩
  | 126 => ⟨S550000, .i32⟩
  | 127 => ⟨S550000, .i32⟩
  | _ => ⟨S50000, .i32⟩

abbrev hbmTy0_1 (i : Nat) : BufTy := match i % 128 with
  | 0 => ⟨S550000, .i32⟩
  | 1 => ⟨S550000x1, .i32⟩
  | 2 => ⟨S550000, .f32⟩
  | 3 => ⟨S550000, .f32⟩
  | 4 => ⟨S50000x128, .f32⟩
  | 5 => ⟨S_, .i32⟩
  | 6 => ⟨S550000, .i32⟩
  | 7 => ⟨S550000, .i1⟩
  | 8 => ⟨S_, .i32⟩
  | 9 => ⟨S550000, .i32⟩
  | 10 => ⟨S550000, .i32⟩
  | 11 => ⟨S550000, .i32⟩
  | 12 => ⟨S550000x1, .i32⟩
  | 13 => ⟨S550000x128, .f32⟩
  | 14 => ⟨S550000x1, .f32⟩
  | 15 => ⟨S550000x128, .f32⟩
  | 16 => ⟨S550000x128, .f32⟩
  | 17 => ⟨S_, .f32⟩
  | 18 => ⟨S50000x128, .f32⟩
  | 19 => ⟨S550000x1, .i32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S_, .f32⟩
  | 26 => ⟨S50000, .f32⟩
  | 27 => ⟨S50000x1, .f32⟩
  | 28 => ⟨S_, .f32⟩
  | 29 => ⟨S50000x1, .f32⟩
  | 30 => ⟨S50000x1, .f32⟩
  | 31 => ⟨S50000x128, .f32⟩
  | 32 => ⟨S50000x128, .f32⟩
  | 33 => ⟨S50000x128, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S_, .f32⟩
  | 43 => ⟨S50000x1, .f32⟩
  | 44 => ⟨S50000x1, .f32⟩
  | 45 => ⟨S50000x1, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_16 : Ref sig .tc := ⟨.hbm, 113, rfl⟩
abbrev main_v84 : Ref sig .tc := ⟨.hbm, 114, rfl⟩
abbrev main_v85 : Ref sig .tc := ⟨.hbm, 115, rfl⟩
abbrev main_c_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_18 : Ref sig .tc := ⟨.hbm, 122, rfl⟩
abbrev main_v91 : Ref sig .tc := ⟨.hbm, 123, rfl⟩
abbrev main_v92 : Ref sig .tc := ⟨.hbm, 124, rfl⟩
abbrev main_c_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_20 : Ref sig .tc := ⟨.hbm, 133, rfl⟩
abbrev main_v100 : Ref sig .tc := ⟨.hbm, 134, rfl⟩
abbrev main_v101 : Ref sig .tc := ⟨.hbm, 135, rfl⟩
abbrev main_c_21 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_22 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_23 : Ref sig .tc := ⟨.hbm, 153, rfl⟩
abbrev main_v117 : Ref sig .tc := ⟨.hbm, 154, rfl⟩
abbrev main_v118 : Ref sig .tc := ⟨.hbm, 155, rfl⟩
abbrev main_cst_24 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_25 : Ref sig .tc := ⟨.hbm, 162, rfl⟩
abbrev main_v124 : Ref sig .tc := ⟨.hbm, 163, rfl⟩
abbrev main_v125 : Ref sig .tc := ⟨.hbm, 164, rfl⟩
abbrev main_cst_26 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_27 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S50000_S50000x1_0 : S50000.BroadcastsInDim S50000x1 (![0] : Fin 1 → Fin S50000x1.rank)
  concatenates_S500000_S50000_S550000_d0 : Shape.Concatenates [S500000, S50000] S550000 0
  bcast_S_S550000 : S_.BroadcastsInDim S550000 (![] : Fin 0 → Fin S550000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S512x128_S50000x1_S50000x128_1_0_n_n_0_1_1128_wf : GatherDims.WF S512x128 S50000x1 S50000x128 [1] [0] [] [0] [] 1 ![1, 128]
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x128_S128x128_S50000x128_1_0_0_1_n_n_wf : DotDims.WF S50000x128 S128x128 S50000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1

variable [Facts₀]

def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

class Facts : Prop extends Facts₀ where

variable [Facts]
-- ==== Proof.Spec.lean ====
/-
  The mathematics of the two-layer graph convolution, index by index on the extended reals.

  Three whole-array functions, each the value of one stage at row r and column j:
  * the embedding lookup: row (ids r) of the table;
  * the dense projection: the sum over k of x(r, k) · W(k, j);
  * the residual layer norm: with y(k) = (x(r, k) + agg(r, k)) + b(k), mean μ = (Σ y) / 128, centred d = y − μ and
    variance v = (Σ d·d) / 128, the value d(j) · (v + ε)^(−1/2) · g(j) + β(j).
  The neighbourhood aggregation between them (degree normalisation, gather of source rows, scatter-add onto
  destination rows) is the same chain of host operations in both programs and is never opened.
-/
import Idealize.ShloMosaic.PureOps.Ideal
import Idealize.ShloMosaic.Lib.ValueIdx

noncomputable section

namespace Cert.Gcn

open Idealize.ShloMosaic Idealize.ShloMosaic.ValueIdx

/-- The divisor of both means, 128, as the f32 word both programs carry. -/
abbrev c128 : EReal := Ideal.ofBits .f32 0x43000000#32
/-- The variance offset ε, as the f32 word both programs carry. -/
abbrev cEps : EReal := Ideal.ofBits .f32 0x3727C5AC#32

/-- Row `ids r` of the 512-row table, column j (the row number read modulo 512: inside the table's range it is
    the number itself). -/
def embAt (ids : Fin 50000 → BitVec 32) (emb : (⟨2, ![512, 128]⟩ : Shape).Idx → EReal) (r : Fin 50000) (j : Fin 128) : EReal :=
  emb (ix2 (⟨(ids r).toNat % 512, Nat.mod_lt _ (by decide)⟩ : Fin 512) j)

/-- The looked-up rows as an array. -/
def embF (ids : Fin 50000 → BitVec 32) (emb : (⟨2, ![512, 128]⟩ : Shape).Idx → EReal) :
    (⟨2, ![50000, 128]⟩ : Shape).Idx → EReal :=
  fun i => embAt ids emb (i 0) (i 1)

/-- The product x · W at (r, j). -/
def linAt (x : (⟨2, ![50000, 128]⟩ : Shape).Idx → EReal) (W : (⟨2, ![128, 128]⟩ : Shape).Idx → EReal) (r : Fin 50000) (j : Fin 128) : EReal :=
  ∑ k : Fin 128, x (ix2 r k) * W (ix2 k j)

/-- The product x · W as an array. -/
def linF (x : (⟨2, ![50000, 128]⟩ : Shape).Idx → EReal) (W : (⟨2, ![128, 128]⟩ : Shape).Idx → EReal) :
    (⟨2, ![50000, 128]⟩ : Shape).Idx → EReal :=
  fun i => linAt x W (i 0) (i 1)

/-- One row's layer norm over a row y of 128 entries, at column j, scaled by g and shifted by β. -/
def lnRow (y : Fin 128 → EReal) (g beta : Fin 128 → EReal) (j : Fin 128) : EReal :=
  (y j - Ideal.div (∑ k : Fin 128, y k) c128)
      * Ideal.rsqrt (Ideal.div (∑ k : Fin 128, (y k - Ideal.div (∑ k' : Fin 128, y k') c128) * (y k - Ideal.div (∑ k' : Fin 128, y k') c128)) c128 + cEps)
      * g j + beta j

/-- The residual layer norm at (r, j): the row is (x + agg) + b. -/
def lnAt (x agg : (⟨2, ![50000, 128]⟩ : Shape).Idx → EReal) (b g beta : Fin 128 → EReal) (r : Fin 50000) (j : Fin 128) : EReal :=
  lnRow (fun k => (x (ix2 r k) + agg (ix2 r k)) + b k) g beta j

/-- The residual layer norm as an array. -/
def lnF (x agg : (⟨2, ![50000, 128]⟩ : Shape).Idx → EReal) (b g beta : Fin 128 → EReal) :
    (⟨2, ![50000, 128]⟩ : Shape).Idx → EReal :=
  fun i => lnAt x agg b g beta (i 0) (i 1)

end Cert.Gcn

end
-- ==== Proof.EmbedBlock.lean ====
/-
  The lookup body at one element. The body compares each row's id with the lane numbers 0 … 511, turns the
  comparison into the numbers 0 and 1, and multiplies that 5000 × 512 matrix into the 512 × 128 table: at (p, q) the
  sum over k of [id p = k] · table(k, q), in which every term but the one at k = id p is 0 · something = 0 (on the
  extended reals 0 · ±∞ = 0 as well), so the sum is table(id p, q) — provided the id is one of 0 … 511.
-/
import proofs.«415212_j29437705847415_3_alg».proof.Proof.Gen.KernelIdeal.Skeleton
import proofs.«415212_j29437705847415_3_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Hand

open Cert.KernelIdeal Cert.KernelIdeal.Gen

/-! ## The operand indices of the product, axis by axis -/

theorem lhs_embed_0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs_embed_1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
theorem rhs_embed_0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
theorem rhs_embed_1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-! ## The comparison matrix at one entry -/

/-- A one-bit word widened and read as a signed number is 1 when the bit is set and 0 when it is not. -/
theorem sitofp_bit (b : BitVec 1) :
    (FloatOps.sitofp (F := Ideal) .f32 (b.setWidth 32) : EReal) = if b = 1#1 then 1 else 0 := by
  rcases BitVec.eq_zero_or_eq_one b with rfl | rfl
  · show (((0#1 : BitVec 1).setWidth 32).toInt : ℝ) = ((0 : ℝ) : EReal)
    simp
  · show ((((1#1 : BitVec 1).setWidth 32).toInt : ℝ) : EReal) = ((1 : ℝ) : EReal)
    simp

/-- Entry (p, k) of the comparison matrix: 1 when row p's id is the lane number k, else 0. -/
theorem onehot_apply (v0 : Vec Ideal S5000x1 .i32) (p : Fin 5000) (k : Fin 512) :
    (sitofp .f32 (extui 32 (cmpi .eq (broadcastTo S5000x512 (shapeCast S5000x1 v0 shapeCasts_S5000x1_S5000x1) broadcasts_S5000x1_S5000x512)
        (broadcastTo S5000x512 (iota .tc S1x512 32 [1] iota_S1x512_d1_w32) broadcasts_S1x512_S5000x512)) natLt_1_32) : FVec Ideal S5000x512 .f32) (ix2 p k)
      = if v0 (ix2 p (0 : Fin 1)) = BitVec.ofNat 32 k.val then 1 else 0 := by
  rw [sitofp_apply, extui_apply]
  show FloatOps.sitofp (F := Ideal) .f32 ((IntOp.cmpi .eq
      (broadcastTo S5000x512 (shapeCast S5000x1 v0 shapeCasts_S5000x1_S5000x1) broadcasts_S5000x1_S5000x512 (ix2 p k))
      (broadcastTo S5000x512 (iota .tc S1x512 32 [1] iota_S1x512_d1_w32) broadcasts_S1x512_S5000x512 (ix2 p k))).setWidth 32) = _
  rw [broadcastTo_apply _ broadcasts_S5000x1_S5000x512 (ix2 p k) (ix2 p (0 : Fin 1)) (fun a => by
        match a with
        | ⟨0, _⟩ => rfl
        | ⟨1, _⟩ => rfl),
    broadcastTo_apply _ broadcasts_S1x512_S5000x512 (ix2 p k) (ix2 (0 : Fin 1) k) (fun a => by
        match a with
        | ⟨0, _⟩ => rfl
        | ⟨1, _⟩ => rfl),
    shapeCast_self, iota_single_apply, sitofp_bit]
  by_cases hc : v0 (ix2 p (0 : Fin 1)) = BitVec.ofNat 32 k.val
  · rw [if_pos hc, if_pos (IntOp.cmpi_eq.mpr hc)]
  · rw [if_neg hc, if_neg (fun h => hc (IntOp.cmpi_eq.mp h))]

/-- The lookup body's stored value at (p, q): row `id p` of the table, column q. -/
theorem embed_pay_apply (v0 : Vec Ideal S5000x1 .i32) (v8 : Vec Ideal S512x128 .f32) (p : Fin 5000) (q : Fin 128)
    (h : (v0 (ix2 p (0 : Fin 1))).toNat < 512) :
    k0_pay1 (F := Ideal) v0 v8 (ix2 p q)
      = v8 (ix2 (⟨(v0 (ix2 p (0 : Fin 1))).toNat % 512, Nat.mod_lt _ (by decide)⟩ : Fin 512) q) := by
  -- the payload is the product of the comparison matrix with the table, into the zero accumulator
  show FloatOps.matmul dot_S5000x512_S512x128_S5000x128_1_0_0_1_n_n (some .fp32)
      (sitofp .f32 (extui 32 (cmpi .eq (broadcastTo S5000x512 (shapeCast S5000x1 v0 shapeCasts_S5000x1_S5000x1) broadcasts_S5000x1_S5000x512)
        (broadcastTo S5000x512 (iota .tc S1x512 32 [1] iota_S1x512_d1_w32) broadcasts_S1x512_S5000x512)) natLt_1_32) : FVec Ideal S5000x512 .f32)
      v8 (constant S5000x128 .f32 0x00000000#32) (ix2 p q) = _
  rw [Ideal.matmul_constant_zero_apply, ← Equiv.sum_comp (contrEquiv1 dot_S5000x512_S512x128_S5000x128_1_0_0_1_n_n 512 rfl rfl).symm]
  -- each term of the sum, with the operand indices named by coordinates
  have hterm : ∀ k : Fin 512,
      (sitofp .f32 (extui 32 (cmpi .eq (broadcastTo S5000x512 (shapeCast S5000x1 v0 shapeCasts_S5000x1_S5000x1) broadcasts_S5000x1_S5000x512)
        (broadcastTo S5000x512 (iota .tc S1x512 32 [1] iota_S1x512_d1_w32) broadcasts_S1x512_S5000x512)) natLt_1_32) : FVec Ideal S5000x512 .f32)
          (dot_S5000x512_S512x128_S5000x128_1_0_0_1_n_n.lhsIdx (ix2 p q) ((contrEquiv1 dot_S5000x512_S512x128_S5000x128_1_0_0_1_n_n 512 rfl rfl).symm k))
        * v8 (dot_S5000x512_S512x128_S5000x128_1_0_0_1_n_n.rhsIdx (ix2 p q) ((contrEquiv1 dot_S5000x512_S512x128_S5000x128_1_0_0_1_n_n 512 rfl rfl).symm k))
      = (if v0 (ix2 p (0 : Fin 1)) = BitVec.ofNat 32 k.val then (1 : EReal) else 0) * v8 (ix2 k q) := by
    intro k
    have hk := contrEquiv1_symm_val dot_S5000x512_S512x128_S5000x128_1_0_0_1_n_n 512 rfl rfl k
    have el : dot_S5000x512_S512x128_S5000x128_1_0_0_1_n_n.lhsIdx (ix2 p q) ((contrEquiv1 dot_S5000x512_S512x128_S5000x128_1_0_0_1_n_n 512 rfl rfl).symm k) = ix2 p k := funext fun a => Fin.ext (by
      match a with
      | ⟨0, _⟩ => exact lhs_embed_0 _ _
      | ⟨1, _⟩ => exact (lhs_embed_1 _ _).trans hk)
    have er : dot_S5000x512_S512x128_S5000x128_1_0_0_1_n_n.rhsIdx (ix2 p q) ((contrEquiv1 dot_S5000x512_S512x128_S5000x128_1_0_0_1_n_n 512 rfl rfl).symm k) = ix2 k q := funext fun a => Fin.ext (by
      match a with
      | ⟨0, _⟩ => exact (rhs_embed_0 _ _).trans hk
      | ⟨1, _⟩ => exact rhs_embed_1 _ _)
    rw [el, er, onehot_apply]
  rw [Finset.sum_congr rfl fun k _ => hterm k]
  -- only the term at k = id p is not 0 · something
  have hmod : (v0 (ix2 p (0 : Fin 1))).toNat % 512 = (v0 (ix2 p (0 : Fin 1))).toNat := Nat.mod_eq_of_lt h
  rw [Finset.sum_eq_single (⟨(v0 (ix2 p (0 : Fin 1))).toNat % 512, Nat.mod_lt _ (by decide)⟩ : Fin 512)]
  · rw [if_pos (by
      apply BitVec.eq_of_toNat_eq
      show (v0 (ix2 p (0 : Fin 1))).toNat = (BitVec.ofNat 32 ((v0 (ix2 p (0 : Fin 1))).toNat % 512)).toNat
      rw [hmod, BitVec.toNat_ofNat]
      exact (Nat.mod_eq_of_lt (by omega)).symm), one_mul]
  · intro k _ hk
    rw [if_neg (fun he => hk (Fin.ext (by
      show k.val = (v0 (ix2 p (0 : Fin 1))).toNat % 512
      rw [hmod, he, BitVec.toNat_ofNat]
      exact (Nat.mod_eq_of_lt (by have := k.isLt; omega)).symm))), zero_mul]
  · intro hn
    exact absurd (Finset.mem_univ _) hn

end Cert.KernelIdeal.Hand

end
-- ==== Proof.Region0.lean ====
/-
  The lookup's pipeline, from its row blocks to the whole array. The grid has ten points; point t takes the ids of
  rows 5000·t … 5000·t + 4999 (a [5000, 1] block) and the whole table, and writes back the same rows of the result:
  row r of a written block is the table row numbered by row r's id. So each written block is the corresponding block
  of the one array "row (id r) of the table", provided every id is one of 0 … 511, and the ten blocks cover all rows.
-/
import proofs.«415212_j29437705847415_3_alg».proof.Proof.Gen.KernelIdeal.Frame
import proofs.«415212_j29437705847415_3_alg».proof.Proof.EmbedBlock
import proofs.«415212_j29437705847415_3_alg».proof.Proof.Spec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The block numbers at point t: the ids' and the result's blocks are block row t, the table is the one whole block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The ids as the pipeline finds them, one word per row. -/
abbrev idsOf (c : Dev nD) : Fin 50000 → BitVec 32 := fun r => (V c main_v27 : S50000x1.Idx → BitVec 32) (ix2 r (0 : Fin 1))

/-- What point t writes back is block t of the looked-up rows. -/
theorem flushed0_eq (c : Dev nD) (hV : ∀ r : Fin 50000, (idsOf V c r).toNat < 512) (t : Fin cfg0.N) :
    (dat0 V c).flushed 2 t
      = ((cfg0.win 2).blk t).view.read (Elt Ideal) (Cert.Gcn.embF (idsOf V c) (V c main_arg2)) := by
  show (cfg0.win 2).cut (grid0.coords t) ((dat0 V c).after 2 t) = _
  rw [after0_2]
  unfold out0_2
  rw [View.canon_unit_zero hz0]
  simp only [View.ld_unit_zero (S := S5000x1) hz0, View.ld_unit_zero (S := S512x128) hz0]
  obtain ⟨e0, e1, e2, e3, e4, e5⟩ := idx_facts0 t
  funext y
  obtain ⟨p, q, rfl⟩ : ∃ (p : Fin 5000) (q : Fin 128), y = ix2 p q := ⟨y 0, y 1, eq_ix2 y⟩
  have hid : (iblk0 V c 0 t : S5000x1.Idx → BitVec 32) (ix2 p (0 : Fin 1))
      = idsOf V c ((((cfg0.win 2).blk t).view.emb (ix2 p q)) 0) := by
    unfold iblk0 idsOf
    rw [View.read_apply]
    show V c main_v27 (((cfg0.win 0).blk t).view.emb (ix2 p (0 : Fin 1))) = _
    refine congrArg (V c main_v27) (funext fun a => Fin.ext ?_)
    match a with
    | ⟨0, _⟩ =>
      show win0_0.index t (0 : Fin 2) * 5000 + 1 * p.val = win0_2.index t (0 : Fin 2) * 5000 + 1 * p.val
      rw [e0, e4]
    | ⟨1, _⟩ =>
      show win0_0.index t (1 : Fin 2) * 1 + 1 * 0 = 0
      rw [e1]
  refine (embed_pay_apply (iblk0 V c 0 t) (iblk0 V c 1 t) p q (by rw [hid]; exact hV _)).trans ?_
  rw [View.read_apply]
  unfold Cert.Gcn.embF Cert.Gcn.embAt
  have htab : ∀ n : Fin 512, iblk0 V c 1 t (ix2 n q)
      = V c main_arg2 (ix2 n ((((cfg0.win 2).blk t).view.emb (ix2 p q)) 1)) := fun n => by
    unfold iblk0
    rw [View.read_apply]
    show V c main_arg2 (((cfg0.win 1).blk t).view.emb (ix2 n q)) = _
    refine congrArg (V c main_arg2) (funext fun a => Fin.ext ?_)
    match a with
    | ⟨0, _⟩ =>
      show win0_1.index t (0 : Fin 2) * 512 + 1 * n.val = n.val
      rw [e2]; omega
    | ⟨1, _⟩ =>
      show win0_1.index t (1 : Fin 2) * 128 + 1 * q.val = win0_2.index t (1 : Fin 2) * 128 + 1 * q.val
      rw [e3, e5]
  rw [htab]
  show V c main_arg2 _ = V c main_arg2 _
  refine congrArg (V c main_arg2) (congrArg (fun n : Fin 512 => ix2 n _) (Fin.ext ?_))
  show BitVec.toNat (iblk0 V c 0 t (ix2 p (0 : Fin 1))) % 512 = _
  rw [hid]

/-- An index of the result array is in point t's block iff its row lies in rows 5000·t … 5000·t + 4999. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every block row is some point's. -/
theorem idx_onto0 : ∀ q0 : Fin 10, ∃ t : Fin cfg0.N, win0_2.index t (0 : Fin 2) = q0.val ∧ win0_2.index t (1 : Fin 2) = 0 :=
  (by decide +kernel : ∀ q0 : Fin 10, ∃ t : Fin grid0.N, win0_2.index t (0 : Fin 2) = q0.val ∧ win0_2.index t (1 : Fin 2) = 0)

/-- THE RESULT ARRAY of this pipeline: row (id r) of the table at every row r, when every id is one of 0 … 511. -/
theorem region0_final (c : Dev nD) (hV : ∀ r : Fin 50000, (idsOf V c r).toNat < 512) :
    (dat0 V c).arrAt 2 cfg0.N = Cert.Gcn.embF (idsOf V c) (V c main_arg2) :=
  (dat0 V c).arrAt_eq_of_cover 2 _ (fun t _ => flushed0_eq V c hV t) fun i => by
    have hi0 : (i 0).val < 50000 := (i 0).isLt
    have hi1 : (i 1).val < 128 := (i 1).isLt
    obtain ⟨t, ht0, ht1⟩ := idx_onto0 ⟨(i 0).val / 5000, by omega⟩
    refine ⟨t, flush0_2 t, ?_⟩
    rw [mem_blk0]
    intro a
    match a with
    | ⟨0, _⟩ =>
      show win0_2.index t (0 : Fin 2) * 5000 ≤ (i 0).val ∧ (i 0).val < win0_2.index t (0 : Fin 2) * 5000 + 5000
      rw [ht0]; show (i 0).val / 5000 * 5000 ≤ (i 0).val ∧ (i 0).val < (i 0).val / 5000 * 5000 + 5000; omega
    | ⟨1, _⟩ =>
      show win0_2.index t (1 : Fin 2) * 128 ≤ (i 1).val ∧ (i 1).val < win0_2.index t (1 : Fin 2) * 128 + 128
      rw [ht1]; omega

end Cert.KernelIdeal.Hand

end
-- ==== Proof.LinBlock.lean ====
/-
  The projection body at one element: the block of x (its entries read as they are: narrowing a float's format
  changes nothing on the extended reals) times W into a zero accumulator, at (p, q) the sum over k of
  x(p, k) · W(k, q).
-/
import proofs.«415212_j29437705847415_3_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Hand

open Cert.KernelIdeal Cert.KernelIdeal.Gen

/-- The left operand's row is the result's row: axis 0 is the left operand's one free axis. -/
theorem lhs_dot_S5000x128_S128x128_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬ ((0 : Fin S5000x128.rank) ∈ dot_S5000x128_S128x128_S5000x128_1_0_0_1_n_n.lhsBatch) by decide),
    dif_pos (show (0 : Fin S5000x128.rank) ∈ dot_S5000x128_S128x128_S5000x128_1_0_0_1_n_n.lhsNonContracting by decide)]
  rfl

/-- The left operand's column is the contraction position: axis 1 is the one contracted. -/
theorem lhs_dot_S5000x128_S128x128_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single (cl := 1) rfl j k

/-- The right operand's row is the contraction position: axis 0 is the one contracted. -/
theorem rhs_dot_S5000x128_S128x128_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single (cr := 0) rfl j k

/-- The right operand's column is the result's column: axis 1 is the right operand's one free axis. -/
theorem rhs_dot_S5000x128_S128x128_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬ ((1 : Fin S128x128.rank) ∈ dot_S5000x128_S128x128_S5000x128_1_0_0_1_n_n.rhsBatch) by decide),
    dif_pos (show (1 : Fin S128x128.rank) ∈ dot_S5000x128_S128x128_S5000x128_1_0_0_1_n_n.rhsNonContracting by decide)]
  rfl

/-- The product of a 5000 × 128 block and a 128 × 128 matrix into a zero accumulator, at (p, q). -/
theorem matmul_block_apply (a : FVec Ideal S5000x128 .bf16) (w : FVec Ideal S128x128 .bf16) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext d
    match d with
    | ⟨0, _⟩ => exact Fin.ext (lhs_dot_S5000x128_S128x128_0 _ _)
    | ⟨1, _⟩ => exact Fin.ext ((lhs_dot_S5000x128_S128x128_1 _ _).trans hk)
  have hr : dot_S5000x128_S128x128_S5000x128_1_0_0_1_n_n.rhsIdx (ix2 p q)
      ((contrEquiv1 dot_S5000x128_S128x128_S5000x128_1_0_0_1_n_n 128 rfl rfl).symm k) = ix2 k q := by
    funext d
    match d with
    | ⟨0, _⟩ => exact Fin.ext ((rhs_dot_S5000x128_S128x128_0 _ _).trans hk)
    | ⟨1, _⟩ => exact Fin.ext (rhs_dot_S5000x128_S128x128_1 _ _)
  rw [hl, hr]

/-- The first projection's stored value at (p, q). -/
theorem lin1_pay_apply (v0 : Vec Ideal S5000x128 .f32) (v3 : Vec Ideal S128x128 .f32) (p : Fin 5000) (q : Fin 128) :
    k1_pay1 (F := Ideal) v0 v3 (ix2 p q) = ∑ k : Fin 128, v0 (ix2 p k) * v3 (ix2 k q) := by
  unfold k1_pay1
  refine (matmul_block_apply _ _ p q).trans ?_
  refine Finset.sum_congr rfl fun k _ => ?_
  rw [truncf_apply, truncf_apply, shapeCast_self]

/-- The second projection's stored value at (p, q): the same body. -/
theorem lin3_pay_apply (v0 : Vec Ideal S5000x128 .f32) (v3 : Vec Ideal S128x128 .f32) (p : Fin 5000) (q : Fin 128) :
    k3_pay1 (F := Ideal) v0 v3 (ix2 p q) = ∑ k : Fin 128, v0 (ix2 p k) * v3 (ix2 k q) :=
  lin1_pay_apply v0 v3 p q

end Cert.KernelIdeal.Hand

end
-- ==== Proof.Region1.lean ====
/-
  The first projection's pipeline, from its row blocks to the whole array. The grid has ten points; point t
  takes rows 5000·t … 5000·t + 4999 of x (all 128 columns) and the whole of W, and writes back the same rows of the
  result. Each written block is the corresponding block of the one array x · W, and the ten blocks cover all 50000
  rows, so the result array ends as x · W of the arrays the pipeline was entered with.
-/
import proofs.«415212_j29437705847415_3_alg».proof.Proof.Gen.KernelIdeal.Frame
import proofs.«415212_j29437705847415_3_alg».proof.Proof.LinBlock
import proofs.«415212_j29437705847415_3_alg».proof.Proof.Spec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The block numbers at point t: x's and the result's blocks are block row t, W's is the one whole block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- What point t writes back is block t of x · W. -/
theorem flushed1_eq (c : Dev nD) (t : Fin cfg1.N) :
    (dat1 V c).flushed 2 t
      = ((cfg1.win 2).blk t).view.read (Elt Ideal) (Cert.Gcn.linF (V c main_v28) (V c main_arg3)) := by
  show (cfg1.win 2).cut (grid1.coords t) ((dat1 V c).after 2 t) = _
  rw [after1_2]
  unfold out1_2
  rw [View.canon_unit_zero hz1]
  simp only [View.ld_unit_zero (S := S5000x128) hz1, View.ld_unit_zero (S := S128x128) hz1]
  obtain ⟨e0, e1, e2, e3, e4, e5, _⟩ := idx_facts1 t
  funext y
  obtain ⟨p, q, rfl⟩ : ∃ (p : Fin 5000) (q : Fin 128), y = ix2 p q := ⟨y 0, y 1, eq_ix2 y⟩
  refine (lin1_pay_apply (iblk1 V c 0 t) (iblk1 V c 1 t) p q).trans ?_
  rw [View.read_apply]
  unfold Cert.Gcn.linF Cert.Gcn.linAt
  refine Finset.sum_congr rfl fun k _ => ?_
  have hx : iblk1 V c 0 t (ix2 p k)
      = V c main_v28 (ix2 ((((cfg1.win 2).blk t).view.emb (ix2 p q)) 0) k) := by
    unfold iblk1
    rw [View.read_apply]
    show V c main_v28 (((cfg1.win 0).blk t).view.emb (ix2 p k)) = _
    refine congrArg (V c main_v28) (funext fun a => Fin.ext ?_)
    match a with
    | ⟨0, _⟩ =>
      show win1_0.index t (0 : Fin 2) * 5000 + 1 * p.val = win1_2.index t (0 : Fin 2) * 5000 + 1 * p.val
      rw [e0, e4]
    | ⟨1, _⟩ =>
      show win1_0.index t (1 : Fin 2) * 128 + 1 * k.val = k.val
      rw [e1]; omega
  have hw : iblk1 V c 1 t (ix2 k q)
      = V c main_arg3 (ix2 k ((((cfg1.win 2).blk t).view.emb (ix2 p q)) 1)) := by
    unfold iblk1
    rw [View.read_apply]
    show V c main_arg3 (((cfg1.win 1).blk t).view.emb (ix2 k q)) = _
    refine congrArg (V c main_arg3) (funext fun a => Fin.ext ?_)
    match a with
    | ⟨0, _⟩ =>
      show win1_1.index t (0 : Fin 2) * 128 + 1 * k.val = k.val
      rw [e2]; omega
    | ⟨1, _⟩ =>
      show win1_1.index t (1 : Fin 2) * 128 + 1 * q.val = win1_2.index t (1 : Fin 2) * 128 + 1 * q.val
      rw [e3, e5]
  rw [hx, hw]

/-- An index of the result array is in point t's block iff its row lies in rows 5000·t … 5000·t + 4999. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v29).slice (win1_2.rect t)).set ↔ _
  rw [View.set_slice_whole, Rect.mem_set_unit]
  exact Iff.rfl

/-- Every block row is some point's. -/
theorem idx_onto1 : ∀ q0 : Fin 10, ∃ t : Fin cfg1.N, win1_2.index t (0 : Fin 2) = q0.val ∧ win1_2.index t (1 : Fin 2) = 0 :=
  (by decide +kernel : ∀ q0 : Fin 10, ∃ t : Fin grid1.N, win1_2.index t (0 : Fin 2) = q0.val ∧ win1_2.index t (1 : Fin 2) = 0)

/-- THE RESULT ARRAY of this pipeline: x · W of the arrays it was entered with. -/
theorem region1_final (c : Dev nD) :
    (dat1 V c).arrAt 2 cfg1.N = Cert.Gcn.linF (V c main_v28) (V c main_arg3) :=
  (dat1 V c).arrAt_eq_of_cover 2 _ (fun t _ => flushed1_eq V c t) fun i => by
    have hi0 : (i 0).val < 50000 := (i 0).isLt
    have hi1 : (i 1).val < 128 := (i 1).isLt
    obtain ⟨t, ht0, ht1⟩ := idx_onto1 ⟨(i 0).val / 5000, by omega⟩
    refine ⟨t, flush1_2 t, ?_⟩
    rw [mem_blk1]
    intro a
    match a with
    | ⟨0, _⟩ =>
      show win1_2.index t (0 : Fin 2) * 5000 ≤ (i 0).val ∧ (i 0).val < win1_2.index t (0 : Fin 2) * 5000 + 5000
      rw [ht0]; show (i 0).val / 5000 * 5000 ≤ (i 0).val ∧ (i 0).val < (i 0).val / 5000 * 5000 + 5000; omega
    | ⟨1, _⟩ =>
      show win1_2.index t (1 : Fin 2) * 128 ≤ (i 1).val ∧ (i 1).val < win1_2.index t (1 : Fin 2) * 128 + 128
      rw [ht1]; omega

end Cert.KernelIdeal.Hand

end
-- ==== Proof.LnBlock.lean ====
/-
  The residual layer-norm body at one element. With y = (x + agg) + b on a row of 128 entries the body takes the
  row's mean (the lane sum divided by 128), centres the row, takes the mean of the squares, and stores
  centred · (variance + ε)^(−1/2) · g + β: at (p, q) the one-row layer norm of row p at column q.
-/
import proofs.«415212_j29437705847415_3_alg».proof.Proof.Gen.KernelIdeal.Skeleton
import proofs.«415212_j29437705847415_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.KernelIdeal.Hand

open Cert.KernelIdeal Cert.KernelIdeal.Gen

/-! ## The keepdims column forms and the lane sum at explicit coordinates -/

/-- An `[a]` array cast to the column `[a, 1]` reads, at `(i, u)`, the operand at `i`, whatever the unit coordinate `u`. -/
theorem lnColCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem lnColBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 128 lanes of a `[2000, 128]` block, at row `p`, is the sum of that row's entries. -/
theorem lnLaneSum_apply (src : FVec Ideal S2000x128 .f32) (p : Fin 2000) :
    multiReduction .add [1] S2000 src 0x00000000#32 reduces_S2000x128_S2000 (.inl rfl) rfl (ix1 p)
      = ∑ k : Fin 128, src (ix2 p k) := by
  refine (Ideal.multiReduction_add_single src 0x00000000#32 reduces_S2000x128_S2000 (.inl rfl) rfl (ix1 p)).trans ?_
  refine Finset.sum_congr rfl fun k _ => congrArg src ?_
  funext c
  match c with
  | ⟨0, _⟩ => rfl
  | ⟨1, _⟩ => rfl

/-- A reciprocal square root at an index is the extended reals' reciprocal square root of the element. -/
theorem lnRsqrt_apply {s : Shape} {φ : FTy} (a : FVec Ideal s φ) (i : s.Idx) : rsqrt a i = Ideal.rsqrt (a i) := rfl

/-- The first layer norm's stored value at (p, q). -/
theorem ln2_pay_apply (v0 v2 : Vec Ideal S2000x128 .f32) (v5 v25 v29 : Vec Ideal S1x128 .f32) (p : Fin 2000) (q : Fin 128) :
    k2_pay1 (F := Ideal) v0 v2 v5 v25 v29 (ix2 p q)
      = Cert.Gcn.lnRow (fun k => (v0 (ix2 p k) + v2 (ix2 p k)) + v5 (ix2 (0 : Fin 1) k))
          (fun k => v25 (ix2 (0 : Fin 1) k)) (fun k => v29 (ix2 (0 : Fin 1) k)) q := by
  -- read every pointwise operation, cast and broadcast at the element; what is left are the two lane sums at row p
  unfold k2_pay1 Cert.Gcn.lnRow
  simp only [addf_apply, mulf_apply, subf_apply, divf_apply, broadcast_apply, lnRsqrt_apply, shapeCast_self,
    broadcastTo_1b_ab_apply, lnColBroadcast_apply, lnColCast_apply, Ideal.ofBits_def]
  -- the row's sum, and the sum of the squared centred entries
  rw [lnLaneSum_apply, lnLaneSum_apply]
  simp only [addf_apply, mulf_apply, subf_apply, divf_apply, broadcast_apply, lnRsqrt_apply, shapeCast_self,
    broadcastTo_1b_ab_apply, lnColBroadcast_apply, lnColCast_apply, Ideal.ofBits_def]
  -- the mean inside each centred entry is again the row's sum divided by 128
  rw [lnLaneSum_apply]
  simp only [addf_apply, broadcastTo_1b_ab_apply]

/-- The second layer norm's stored value at (p, q): the same body. -/
theorem ln4_pay_apply (v0 v2 : Vec Ideal S2000x128 .f32) (v5 v25 v29 : Vec Ideal S1x128 .f32) (p : Fin 2000) (q : Fin 128) :
    k4_pay1 (F := Ideal) v0 v2 v5 v25 v29 (ix2 p q)
      = Cert.Gcn.lnRow (fun k => (v0 (ix2 p k) + v2 (ix2 p k)) + v5 (ix2 (0 : Fin 1) k))
          (fun k => v25 (ix2 (0 : Fin 1) k)) (fun k => v29 (ix2 (0 : Fin 1) k)) q :=
  ln2_pay_apply v0 v2 v5 v25 v29 p q

end Cert.KernelIdeal.Hand

end
-- ==== Proof.Region2.lean ====
/-
  The first residual layer norm's pipeline, from its row blocks to the whole array. The grid has 25 points; point t
  takes rows 2000·t … 2000·t + 1999 of x and of agg (all 128 columns) and the three [1, 128] rows b, g, β whole, and
  writes back the same rows of the result. A row's layer norm depends on that row only, so each written block is the
  corresponding block of the one array "layer norm of (x + agg) + b, row by row", and the 25 blocks cover all 50000 rows.
-/
import proofs.«415212_j29437705847415_3_alg».proof.Proof.Gen.KernelIdeal.Frame
import proofs.«415212_j29437705847415_3_alg».proof.Proof.LnBlock
import proofs.«415212_j29437705847415_3_alg».proof.Proof.Spec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The block numbers at point t: x's, agg's and the result's blocks are block row t; b, g, β are one whole block each. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The one-row layer norm of equal rows, scales, shifts and columns is equal. -/
theorem lnRow_congr {f f' g g' b b' : Fin 128 → EReal} {j j' : Fin 128} (hf : f = f') (hg : g = g') (hb : b = b') (hj : j = j') :
    Cert.Gcn.lnRow f g b j = Cert.Gcn.lnRow f' g' b' j' := by
  subst hf hg hb hj; rfl

/-- What point t writes back is block t of the row-by-row layer norm of (x + agg) + b. -/
theorem flushed2_eq (c : Dev nD) (t : Fin cfg2.N) :
    (dat2 V c).flushed 5 t
      = ((cfg2.win 5).blk t).view.read (Elt Ideal)
          (Cert.Gcn.lnF (V c main_v28) (V c main_v42) (fun k => V c main_v43 (ix2 (0 : Fin 1) k))
            (fun k => V c main_v44 (ix2 (0 : Fin 1) k)) (fun k => V c main_v45 (ix2 (0 : Fin 1) k))) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S1x128) hz2]
  obtain ⟨e0, e1, e2, e3, e4, e5, e6, e7, e8, e9, e10, e11⟩ := idx_facts2 t
  funext y
  obtain ⟨p, q, rfl⟩ : ∃ (p : Fin 2000) (q : Fin 128), y = ix2 p q := ⟨y 0, y 1, eq_ix2 y⟩
  refine (ln2_pay_apply (iblk2 V c 0 t) (iblk2 V c 1 t) (iblk2 V c 2 t) (iblk2 V c 3 t) (iblk2 V c 4 t) p q).trans ?_
  rw [View.read_apply]
  -- the block's entries have the array's own entry type: reading changes nothing
  refine Eq.trans ?_ (cast_eq _ _).symm
  unfold Cert.Gcn.lnF Cert.Gcn.lnAt
  have hx : ∀ k : Fin 128, iblk2 V c 0 t (ix2 p k)
      = V c main_v28 (ix2 ((((cfg2.win 5).blk t).view.emb (ix2 p q)) 0) k) := fun k => by
    unfold iblk2
    rw [View.read_apply]
    show V c main_v28 (((cfg2.win 0).blk t).view.emb (ix2 p k)) = _
    refine congrArg (V c main_v28) (funext fun a => Fin.ext ?_)
    match a with
    | ⟨0, _⟩ =>
      show win2_0.index t (0 : Fin 2) * 2000 + 1 * p.val = win2_5.index t (0 : Fin 2) * 2000 + 1 * p.val
      rw [e0, e10]
    | ⟨1, _⟩ =>
      show win2_0.index t (1 : Fin 2) * 128 + 1 * k.val = k.val
      rw [e1]; omega
  have ha : ∀ k : Fin 128, iblk2 V c 1 t (ix2 p k)
      = V c main_v42 (ix2 ((((cfg2.win 5).blk t).view.emb (ix2 p q)) 0) k) := fun k => by
    unfold iblk2
    rw [View.read_apply]
    show V c main_v42 (((cfg2.win 1).blk t).view.emb (ix2 p k)) = _
    refine congrArg (V c main_v42) (funext fun a => Fin.ext ?_)
    match a with
    | ⟨0, _⟩ =>
      show win2_1.index t (0 : Fin 2) * 2000 + 1 * p.val = win2_5.index t (0 : Fin 2) * 2000 + 1 * p.val
      rw [e2, e10]
    | ⟨1, _⟩ =>
      show win2_1.index t (1 : Fin 2) * 128 + 1 * k.val = k.val
      rw [e3]; omega
  have hb : ∀ k : Fin 128, iblk2 V c 2 t (ix2 (0 : Fin 1) k) = V c main_v43 (ix2 (0 : Fin 1) k) := fun k => by
    unfold iblk2
    rw [View.read_apply]
    show V c main_v43 (((cfg2.win 2).blk t).view.emb (ix2 (0 : Fin 1) k)) = _
    refine congrArg (V c main_v43) (funext fun a => Fin.ext ?_)
    match a with
    | ⟨0, _⟩ =>
      show win2_2.index t (0 : Fin 2) * 1 + 1 * 0 = 0
      rw [e4]
    | ⟨1, _⟩ =>
      show win2_2.index t (1 : Fin 2) * 128 + 1 * k.val = k.val
      rw [e5]; omega
  have hg : ∀ k : Fin 128, iblk2 V c 3 t (ix2 (0 : Fin 1) k) = V c main_v44 (ix2 (0 : Fin 1) k) := fun k => by
    unfold iblk2
    rw [View.read_apply]
    show V c main_v44 (((cfg2.win 3).blk t).view.emb (ix2 (0 : Fin 1) k)) = _
    refine congrArg (V c main_v44) (funext fun a => Fin.ext ?_)
    match a with
    | ⟨0, _⟩ =>
      show win2_3.index t (0 : Fin 2) * 1 + 1 * 0 = 0
      rw [e6]
    | ⟨1, _⟩ =>
      show win2_3.index t (1 : Fin 2) * 128 + 1 * k.val = k.val
      rw [e7]; omega
  have hbeta : ∀ k : Fin 128, iblk2 V c 4 t (ix2 (0 : Fin 1) k) = V c main_v45 (ix2 (0 : Fin 1) k) := fun k => by
    unfold iblk2
    rw [View.read_apply]
    show V c main_v45 (((cfg2.win 4).blk t).view.emb (ix2 (0 : Fin 1) k)) = _
    refine congrArg (V c main_v45) (funext fun a => Fin.ext ?_)
    match a with
    | ⟨0, _⟩ =>
      show win2_4.index t (0 : Fin 2) * 1 + 1 * 0 = 0
      rw [e8]
    | ⟨1, _⟩ =>
      show win2_4.index t (1 : Fin 2) * 128 + 1 * k.val = k.val
      rw [e9]; omega
  refine lnRow_congr (funext fun k => ?_) (funext fun k => hg k) (funext fun k => hbeta k) (Fin.ext ?_)
  · exact congrArg₂ (fun a b : EReal => a + b) (congrArg₂ (fun a b : EReal => a + b) (hx k) (ha k)) (hb k)
  · show q.val = win2_5.index t (1 : Fin 2) * 128 + 1 * q.val
    rw [e11]; omega

/-- An index of the result array is in point t's block iff its row lies in rows 2000·t … 2000·t + 1999. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v46).slice (win2_5.rect t)).set ↔ _
  rw [View.set_slice_whole, Rect.mem_set_unit]
  exact Iff.rfl

/-- Every block row is some point's. -/
theorem idx_onto2 : ∀ q0 : Fin 25, ∃ t : Fin cfg2.N, win2_5.index t (0 : Fin 2) = q0.val ∧ win2_5.index t (1 : Fin 2) = 0 :=
  (by decide +kernel : ∀ q0 : Fin 25, ∃ t : Fin grid2.N, win2_5.index t (0 : Fin 2) = q0.val ∧ win2_5.index t (1 : Fin 2) = 0)

/-- THE RESULT ARRAY of this pipeline: the row-by-row layer norm of (x + agg) + b of the arrays it was entered with. -/
theorem region2_final (c : Dev nD) :
    (dat2 V c).arrAt 5 cfg2.N
      = Cert.Gcn.lnF (V c main_v28) (V c main_v42) (fun k => V c main_v43 (ix2 (0 : Fin 1) k))
          (fun k => V c main_v44 (ix2 (0 : Fin 1) k)) (fun k => V c main_v45 (ix2 (0 : Fin 1) k)) :=
  (dat2 V c).arrAt_eq_of_cover 5 _ (fun t _ => flushed2_eq V c t) fun i => by
    have hi0 : (i 0).val < 50000 := (i 0).isLt
    have hi1 : (i 1).val < 128 := (i 1).isLt
    obtain ⟨t, ht0, ht1⟩ := idx_onto2 ⟨(i 0).val / 2000, by omega⟩
    refine ⟨t, flush2_5 t, ?_⟩
    rw [mem_blk2]
    intro a
    match a with
    | ⟨0, _⟩ =>
      show win2_5.index t (0 : Fin 2) * 2000 ≤ (i 0).val ∧ (i 0).val < win2_5.index t (0 : Fin 2) * 2000 + 2000
      rw [ht0]; show (i 0).val / 2000 * 2000 ≤ (i 0).val ∧ (i 0).val < (i 0).val / 2000 * 2000 + 2000; omega
    | ⟨1, _⟩ =>
      show win2_5.index t (1 : Fin 2) * 128 ≤ (i 1).val ∧ (i 1).val < win2_5.index t (1 : Fin 2) * 128 + 128
      rw [ht1]; omega

end Cert.KernelIdeal.Hand

end
-- ==== Proof.Region3.lean ====
/-
  The second projection's pipeline, from its row blocks to the whole array. The grid has ten points; point t
  takes rows 5000·t … 5000·t + 4999 of x (all 128 columns) and the whole of W, and writes back the same rows of the
  result. Each written block is the corresponding block of the one array x · W, and the ten blocks cover all 50000
  rows, so the result array ends as x · W of the arrays the pipeline was entered with.
-/
import proofs.«415212_j29437705847415_3_alg».proof.Proof.Gen.KernelIdeal.Frame
import proofs.«415212_j29437705847415_3_alg».proof.Proof.LinBlock
import proofs.«415212_j29437705847415_3_alg».proof.Proof.Spec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- The block numbers at point t: x's and the result's blocks are block row t, W's is the one whole block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- What point t writes back is block t of x · W. -/
theorem flushed3_eq (c : Dev nD) (t : Fin cfg3.N) :
    (dat3 V c).flushed 2 t
      = ((cfg3.win 2).blk t).view.read (Elt Ideal) (Cert.Gcn.linF (V c main_v46) (V c main_arg5)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S128x128) hz3]
  obtain ⟨e0, e1, e2, e3, e4, e5, _⟩ := idx_facts3 t
  funext y
  obtain ⟨p, q, rfl⟩ : ∃ (p : Fin 5000) (q : Fin 128), y = ix2 p q := ⟨y 0, y 1, eq_ix2 y⟩
  refine (lin3_pay_apply (iblk3 V c 0 t) (iblk3 V c 1 t) p q).trans ?_
  rw [View.read_apply]
  unfold Cert.Gcn.linF Cert.Gcn.linAt
  refine Finset.sum_congr rfl fun k _ => ?_
  have hx : iblk3 V c 0 t (ix2 p k)
      = V c main_v46 (ix2 ((((cfg3.win 2).blk t).view.emb (ix2 p q)) 0) k) := by
    unfold iblk3
    rw [View.read_apply]
    show V c main_v46 (((cfg3.win 0).blk t).view.emb (ix2 p k)) = _
    refine congrArg (V c main_v46) (funext fun a => Fin.ext ?_)
    match a with
    | ⟨0, _⟩ =>
      show win3_0.index t (0 : Fin 2) * 5000 + 1 * p.val = win3_2.index t (0 : Fin 2) * 5000 + 1 * p.val
      rw [e0, e4]
    | ⟨1, _⟩ =>
      show win3_0.index t (1 : Fin 2) * 128 + 1 * k.val = k.val
      rw [e1]; omega
  have hw : iblk3 V c 1 t (ix2 k q)
      = V c main_arg5 (ix2 k ((((cfg3.win 2).blk t).view.emb (ix2 p q)) 1)) := by
    unfold iblk3
    rw [View.read_apply]
    show V c main_arg5 (((cfg3.win 1).blk t).view.emb (ix2 k q)) = _
    refine congrArg (V c main_arg5) (funext fun a => Fin.ext ?_)
    match a with
    | ⟨0, _⟩ =>
      show win3_1.index t (0 : Fin 2) * 128 + 1 * k.val = k.val
      rw [e2]; omega
    | ⟨1, _⟩ =>
      show win3_1.index t (1 : Fin 2) * 128 + 1 * q.val = win3_2.index t (1 : Fin 2) * 128 + 1 * q.val
      rw [e3, e5]
  rw [hx, hw]

/-- An index of the result array is in point t's block iff its row lies in rows 5000·t … 5000·t + 4999. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v47).slice (win3_2.rect t)).set ↔ _
  rw [View.set_slice_whole, Rect.mem_set_unit]
  exact Iff.rfl

/-- Every block row is some point's. -/
theorem idx_onto3 : ∀ q0 : Fin 10, ∃ t : Fin cfg3.N, win3_2.index t (0 : Fin 2) = q0.val ∧ win3_2.index t (1 : Fin 2) = 0 :=
  (by decide +kernel : ∀ q0 : Fin 10, ∃ t : Fin grid3.N, win3_2.index t (0 : Fin 2) = q0.val ∧ win3_2.index t (1 : Fin 2) = 0)

/-- THE RESULT ARRAY of this pipeline: x · W of the arrays it was entered with. -/
theorem region3_final (c : Dev nD) :
    (dat3 V c).arrAt 2 cfg3.N = Cert.Gcn.linF (V c main_v46) (V c main_arg5) :=
  (dat3 V c).arrAt_eq_of_cover 2 _ (fun t _ => flushed3_eq V c t) fun i => by
    have hi0 : (i 0).val < 50000 := (i 0).isLt
    have hi1 : (i 1).val < 128 := (i 1).isLt
    obtain ⟨t, ht0, ht1⟩ := idx_onto3 ⟨(i 0).val / 5000, by omega⟩
    refine ⟨t, flush3_2 t, ?_⟩
    rw [mem_blk3]
    intro a
    match a with
    | ⟨0, _⟩ =>
      show win3_2.index t (0 : Fin 2) * 5000 ≤ (i 0).val ∧ (i 0).val < win3_2.index t (0 : Fin 2) * 5000 + 5000
      rw [ht0]; show (i 0).val / 5000 * 5000 ≤ (i 0).val ∧ (i 0).val < (i 0).val / 5000 * 5000 + 5000; omega
    | ⟨1, _⟩ =>
      show win3_2.index t (1 : Fin 2) * 128 ≤ (i 1).val ∧ (i 1).val < win3_2.index t (1 : Fin 2) * 128 + 128
      rw [ht1]; omega

end Cert.KernelIdeal.Hand

end
-- ==== Proof.Region4.lean ====
/-
  The second residual layer norm's pipeline, from its row blocks to the whole array. The grid has 25 points; point t
  takes rows 2000·t … 2000·t + 1999 of x and of agg (all 128 columns) and the three [1, 128] rows b, g, β whole, and
  writes back the same rows of the result. A row's layer norm depends on that row only, so each written block is the
  corresponding block of the one array "layer norm of (x + agg) + b, row by row", and the 25 blocks cover all 50000 rows.
-/
import proofs.«415212_j29437705847415_3_alg».proof.Proof.Gen.KernelIdeal.Frame
import proofs.«415212_j29437705847415_3_alg».proof.Proof.LnBlock
import proofs.«415212_j29437705847415_3_alg».proof.Proof.Spec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-- The block numbers at point t: x's, agg's and the result's blocks are block row t; b, g, β are one whole block each. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The one-row layer norm of equal rows, scales, shifts and columns is equal. -/
theorem lnRow_congr4 {f f' g g' b b' : Fin 128 → EReal} {j j' : Fin 128} (hf : f = f') (hg : g = g') (hb : b = b') (hj : j = j') :
    Cert.Gcn.lnRow f g b j = Cert.Gcn.lnRow f' g' b' j' := by
  subst hf hg hb hj; rfl

/-- What point t writes back is block t of the row-by-row layer norm of (x + agg) + b. -/
theorem flushed4_eq (c : Dev nD) (t : Fin cfg4.N) :
    (dat4 V c).flushed 5 t
      = ((cfg4.win 5).blk t).view.read (Elt Ideal)
          (Cert.Gcn.lnF (V c main_v46) (V c main_v60) (fun k => V c main_v61 (ix2 (0 : Fin 1) k))
            (fun k => V c main_v62 (ix2 (0 : Fin 1) k)) (fun k => V c main_v63 (ix2 (0 : Fin 1) k))) := by
  show (cfg4.win 5).cut (grid4.coords t) ((dat4 V c).after 5 t) = _
  rw [after4_5]
  unfold out4_5
  rw [View.canon_unit_zero hz4]
  simp only [View.ld_unit_zero (S := S2000x128) hz4, View.ld_unit_zero (S := S1x128) hz4]
  obtain ⟨e0, e1, e2, e3, e4, e5, e6, e7, e8, e9, e10, e11⟩ := idx_facts4 t
  funext y
  obtain ⟨p, q, rfl⟩ : ∃ (p : Fin 2000) (q : Fin 128), y = ix2 p q := ⟨y 0, y 1, eq_ix2 y⟩
  refine (ln4_pay_apply (iblk4 V c 0 t) (iblk4 V c 1 t) (iblk4 V c 2 t) (iblk4 V c 3 t) (iblk4 V c 4 t) p q).trans ?_
  rw [View.read_apply]
  -- the block's entries have the array's own entry type: reading changes nothing
  refine Eq.trans ?_ (cast_eq _ _).symm
  unfold Cert.Gcn.lnF Cert.Gcn.lnAt
  have hx : ∀ k : Fin 128, iblk4 V c 0 t (ix2 p k)
      = V c main_v46 (ix2 ((((cfg4.win 5).blk t).view.emb (ix2 p q)) 0) k) := fun k => by
    unfold iblk4
    rw [View.read_apply]
    show V c main_v46 (((cfg4.win 0).blk t).view.emb (ix2 p k)) = _
    refine congrArg (V c main_v46) (funext fun a => Fin.ext ?_)
    match a with
    | ⟨0, _⟩ =>
      show win4_0.index t (0 : Fin 2) * 2000 + 1 * p.val = win4_5.index t (0 : Fin 2) * 2000 + 1 * p.val
      rw [e0, e10]
    | ⟨1, _⟩ =>
      show win4_0.index t (1 : Fin 2) * 128 + 1 * k.val = k.val
      rw [e1]; omega
  have ha : ∀ k : Fin 128, iblk4 V c 1 t (ix2 p k)
      = V c main_v60 (ix2 ((((cfg4.win 5).blk t).view.emb (ix2 p q)) 0) k) := fun k => by
    unfold iblk4
    rw [View.read_apply]
    show V c main_v60 (((cfg4.win 1).blk t).view.emb (ix2 p k)) = _
    refine congrArg (V c main_v60) (funext fun a => Fin.ext ?_)
    match a with
    | ⟨0, _⟩ =>
      show win4_1.index t (0 : Fin 2) * 2000 + 1 * p.val = win4_5.index t (0 : Fin 2) * 2000 + 1 * p.val
      rw [e2, e10]
    | ⟨1, _⟩ =>
      show win4_1.index t (1 : Fin 2) * 128 + 1 * k.val = k.val
      rw [e3]; omega
  have hb : ∀ k : Fin 128, iblk4 V c 2 t (ix2 (0 : Fin 1) k) = V c main_v61 (ix2 (0 : Fin 1) k) := fun k => by
    unfold iblk4
    rw [View.read_apply]
    show V c main_v61 (((cfg4.win 2).blk t).view.emb (ix2 (0 : Fin 1) k)) = _
    refine congrArg (V c main_v61) (funext fun a => Fin.ext ?_)
    match a with
    | ⟨0, _⟩ =>
      show win4_2.index t (0 : Fin 2) * 1 + 1 * 0 = 0
      rw [e4]
    | ⟨1, _⟩ =>
      show win4_2.index t (1 : Fin 2) * 128 + 1 * k.val = k.val
      rw [e5]; omega
  have hg : ∀ k : Fin 128, iblk4 V c 3 t (ix2 (0 : Fin 1) k) = V c main_v62 (ix2 (0 : Fin 1) k) := fun k => by
    unfold iblk4
    rw [View.read_apply]
    show V c main_v62 (((cfg4.win 3).blk t).view.emb (ix2 (0 : Fin 1) k)) = _
    refine congrArg (V c main_v62) (funext fun a => Fin.ext ?_)
    match a with
    | ⟨0, _⟩ =>
      show win4_3.index t (0 : Fin 2) * 1 + 1 * 0 = 0
      rw [e6]
    | ⟨1, _⟩ =>
      show win4_3.index t (1 : Fin 2) * 128 + 1 * k.val = k.val
      rw [e7]; omega
  have hbeta : ∀ k : Fin 128, iblk4 V c 4 t (ix2 (0 : Fin 1) k) = V c main_v63 (ix2 (0 : Fin 1) k) := fun k => by
    unfold iblk4
    rw [View.read_apply]
    show V c main_v63 (((cfg4.win 4).blk t).view.emb (ix2 (0 : Fin 1) k)) = _
    refine congrArg (V c main_v63) (funext fun a => Fin.ext ?_)
    match a with
    | ⟨0, _⟩ =>
      show win4_4.index t (0 : Fin 2) * 1 + 1 * 0 = 0
      rw [e8]
    | ⟨1, _⟩ =>
      show win4_4.index t (1 : Fin 2) * 128 + 1 * k.val = k.val
      rw [e9]; omega
  refine lnRow_congr4 (funext fun k => ?_) (funext fun k => hg k) (funext fun k => hbeta k) (Fin.ext ?_)
  · exact congrArg₂ (fun a b : EReal => a + b) (congrArg₂ (fun a b : EReal => a + b) (hx k) (ha k)) (hb k)
  · show q.val = win4_5.index t (1 : Fin 2) * 128 + 1 * q.val
    rw [e11]; omega

/-- An index of the result array is in point t's block iff its row lies in rows 2000·t … 2000·t + 1999. -/
theorem mem_blk4 (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v64).slice (win4_5.rect t)).set ↔ _
  rw [View.set_slice_whole, Rect.mem_set_unit]
  exact Iff.rfl

/-- Every block row is some point's. -/
theorem idx_onto4 : ∀ q0 : Fin 25, ∃ t : Fin cfg4.N, win4_5.index t (0 : Fin 2) = q0.val ∧ win4_5.index t (1 : Fin 2) = 0 :=
  (by decide +kernel : ∀ q0 : Fin 25, ∃ t : Fin grid4.N, win4_5.index t (0 : Fin 2) = q0.val ∧ win4_5.index t (1 : Fin 2) = 0)

/-- THE RESULT ARRAY of this pipeline: the row-by-row layer norm of (x + agg) + b of the arrays it was entered with. -/
theorem region4_final (c : Dev nD) :
    (dat4 V c).arrAt 5 cfg4.N
      = Cert.Gcn.lnF (V c main_v46) (V c main_v60) (fun k => V c main_v61 (ix2 (0 : Fin 1) k))
          (fun k => V c main_v62 (ix2 (0 : Fin 1) k)) (fun k => V c main_v63 (ix2 (0 : Fin 1) k)) :=
  (dat4 V c).arrAt_eq_of_cover 5 _ (fun t _ => flushed4_eq V c t) fun i => by
    have hi0 : (i 0).val < 50000 := (i 0).isLt
    have hi1 : (i 1).val < 128 := (i 1).isLt
    obtain ⟨t, ht0, ht1⟩ := idx_onto4 ⟨(i 0).val / 2000, by omega⟩
    refine ⟨t, flush4_5 t, ?_⟩
    rw [mem_blk4]
    intro a
    match a with
    | ⟨0, _⟩ =>
      show win4_5.index t (0 : Fin 2) * 2000 ≤ (i 0).val ∧ (i 0).val < win4_5.index t (0 : Fin 2) * 2000 + 2000
      rw [ht0]; show (i 0).val / 2000 * 2000 ≤ (i 0).val ∧ (i 0).val < (i 0).val / 2000 * 2000 + 2000; omega
    | ⟨1, _⟩ =>
      show win4_5.index t (1 : Fin 2) * 128 ≤ (i 1).val ∧ (i 1).val < win4_5.index t (1 : Fin 2) * 128 + 128
      rw [ht1]; omega

end Cert.KernelIdeal.Hand

end
-- ==== Proof.HostChain.lean ====
/-
  The neighbourhood aggregation, named. From the edge list E (two rows of 500000 node numbers: sources and
  destinations) both programs build, with the same host operations in the same order:
  * src, dst: the sources and the destinations with the 50000 self loops 0, 1, …, 49999 appended;
  * wrap s: a negative node number moved up by 50000;
  * dis: the reciprocal square root of each node's degree, the degree being the sum of 1 over the (self-looped)
    edges whose destination is the node;
  * norm: per edge, dis at its source times dis at its destination;
  * agg h: the rows of h gathered at the edges' sources, each scaled by its edge's norm, and summed onto the rows
    numbered by the edges' destinations.
  None of these is ever opened: the two programs apply them to equal arguments.
-/
import proofs.«415212_j29437705847415_3_alg».proof.KernelIdeal
import Idealize.ShloMosaic.PureOps.Ideal

noncomputable section

open Idealize.ShloMosaic

namespace Cert.KernelIdeal.Hand

open Cert.KernelIdeal

variable [Cert.KernelIdeal.Facts]
open Cert.KernelIdeal.Facts₀ Cert.KernelIdeal.Facts

/-- The edges' sources followed by the self loops. -/
def srcK (E : IVec S2x500000 32) : IVec S550000 32 :=
  concatenate S550000 0 [⟨S500000, shapeCast _ (extractStridedSlice S1x500000 ![0, 0] E slices_S2x500000_S1x500000_0_0) shapeCasts_S1x500000_S500000⟩, ⟨S50000, iotaInDim S50000 32 0⟩] concatenates_S500000_S50000_S550000_d0

/-- The edges' destinations followed by the self loops. -/
def dstK (E : IVec S2x500000 32) : IVec S550000 32 :=
  concatenate S550000 0 [⟨S500000, shapeCast _ (extractStridedSlice S1x500000 ![1, 0] E slices_S2x500000_S1x500000_1_0) shapeCasts_S1x500000_S500000⟩, ⟨S50000, iotaInDim S50000 32 0⟩] concatenates_S500000_S50000_S550000_d0

/-- A negative node number moved up by 50000. -/
def wrapK (s : IVec S550000 32) : IVec S550000 32 :=
  select (cmpi .slt s (broadcastInDim S550000 ![] bcast_S_S550000 (constantI S_ 32 0#32))) (addi s (broadcastInDim S550000 ![] bcast_S_S550000 (constantI S_ 32 50000#32))) s

/-- Each node's degree to the power −1/2. -/
def disK (dst : IVec S550000 32) : FVec Ideal S50000 .f32 :=
  Host.rsqrt (Host.scatterAdd scatter_S50000_S550000x1_S550000_n_0_0_1 (broadcastInDim S50000 ![] bcast_S_S50000 (constant S_ .f32 0x00000000#32)) (broadcastInDim S550000x1 ![0] bcast_S550000_S550000x1_0 dst) (broadcastInDim S550000 ![] bcast_S_S550000 (constant S_ .f32 0x3F800000#32)))

/-- Per edge: dis at its source times dis at its destination. -/
def normOf (src dst : IVec S550000 32) : FVec Ideal S550000 .f32 :=
  mulf (Host.gather gather_S50000_S550000x1_S550000_n_0_n_n_0_1_1 (disK dst) (broadcastInDim S550000x1 ![0] bcast_S550000_S550000x1_0 (wrapK src))) (Host.gather gather_S50000_S550000x1_S550000_n_0_n_n_0_1_1 (disK dst) (broadcastInDim S550000x1 ![0] bcast_S550000_S550000x1_0 (wrapK dst)))

/-- The rows of h at the edges' sources, scaled by norm, summed onto the destinations' rows. -/
def aggOf (src dst : IVec S550000 32) (norm : FVec Ideal S550000 .f32) (h : FVec Ideal S50000x128 .f32) : FVec Ideal S50000x128 .f32 :=
  Host.scatterAdd scatter_S50000x128_S550000x1_S550000x128_1_0_0_1 (broadcastInDim S50000x128 ![] bcast_S_S50000x128 (constant S_ .f32 0x00000000#32)) (broadcastInDim S550000x1 ![0] bcast_S550000_S550000x1_0 dst) (mulf (Host.gather gather_S50000x128_S550000x1_S550000x128_1_0_n_n_0_1_1128 h (broadcastInDim S550000x1 ![0] bcast_S550000_S550000x1_0 (wrapK src))) (broadcastInDim S550000x128 ![0, 1] bcast_S550000x1_S550000x128_0_1 (broadcastInDim S550000x1 ![0] bcast_S550000_S550000x1_0 norm)))

/-- The aggregation of h over the graph E. -/
def aggK (E : IVec S2x500000 32) (h : FVec Ideal S50000x128 .f32) : FVec Ideal S50000x128 .f32 :=
  aggOf (srcK E) (dstK E) (normOf (srcK E) (dstK E)) h

end Cert.KernelIdeal.Hand

end
-- ==== Proof.KernelHost.lean ====
/-
  What the three stretches of host operations between the pipelines leave in the buffers the pipelines read, as
  functions of the buffer contents W the stretch starts from. The first stretch builds the self-looped edge lists,
  the per-edge norm and the ids as a column; the second and the third each aggregate the projection just computed
  over the graph and view a bias, a scale and a shift vector as [1, 128] rows. Every other buffer a later pipeline
  reads passes through a stretch unchanged.
-/
import proofs.«415212_j29437705847415_3_alg».proof.Proof.Gen.KernelIdeal.Frame
import proofs.«415212_j29437705847415_3_alg».proof.Proof.HostChain
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (W : Valuation τ sig (Elt Ideal))

/-! ## The first stretch -/

set_option maxHeartbeats 8000000 in
theorem after0_v5 : StableHlo.after (hostOps0 (F := Ideal)) W (Proc.devRef .tc main_v5) = srcK (W (Proc.devRef .tc main_arg1)) := by
  after_results_simp
  rfl

set_option maxHeartbeats 8000000 in
theorem after0_v6 : StableHlo.after (hostOps0 (F := Ideal)) W (Proc.devRef .tc main_v6) = dstK (W (Proc.devRef .tc main_arg1)) := by
  after_results_simp
  rfl

set_option maxHeartbeats 8000000 in
theorem after0_v26 : StableHlo.after (hostOps0 (F := Ideal)) W (Proc.devRef .tc main_v26)
    = normOf (srcK (W (Proc.devRef .tc main_arg1))) (dstK (W (Proc.devRef .tc main_arg1))) := by
  after_results_simp
  rfl

theorem after0_v27 : StableHlo.after (hostOps0 (F := Ideal)) W (Proc.devRef .tc main_v27)
    = shapeCast _ (W (Proc.devRef .tc main_arg0)) shapeCasts_S50000_S50000x1 := by
  after_results
  rfl

/-- `main_arg2` is not written by this stretch. -/
theorem after0_keep_main_arg2 : StableHlo.after (hostOps0 (F := Ideal)) W (Proc.devRef .tc main_arg2) = W (Proc.devRef .tc main_arg2) := by
  exact StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg3` is not written by this stretch. -/
theorem after0_keep_main_arg3 : StableHlo.after (hostOps0 (F := Ideal)) W (Proc.devRef .tc main_arg3) = W (Proc.devRef .tc main_arg3) := by
  exact StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg4` is not written by this stretch. -/
theorem after0_keep_main_arg4 : StableHlo.after (hostOps0 (F := Ideal)) W (Proc.devRef .tc main_arg4) = W (Proc.devRef .tc main_arg4) := by
  exact StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg5` is not written by this stretch. -/
theorem after0_keep_main_arg5 : StableHlo.after (hostOps0 (F := Ideal)) W (Proc.devRef .tc main_arg5) = W (Proc.devRef .tc main_arg5) := by
  exact StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg6` is not written by this stretch. -/
theorem after0_keep_main_arg6 : StableHlo.after (hostOps0 (F := Ideal)) W (Proc.devRef .tc main_arg6) = W (Proc.devRef .tc main_arg6) := by
  exact StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg7` is not written by this stretch. -/
theorem after0_keep_main_arg7 : StableHlo.after (hostOps0 (F := Ideal)) W (Proc.devRef .tc main_arg7) = W (Proc.devRef .tc main_arg7) := by
  exact StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg8` is not written by this stretch. -/
theorem after0_keep_main_arg8 : StableHlo.after (hostOps0 (F := Ideal)) W (Proc.devRef .tc main_arg8) = W (Proc.devRef .tc main_arg8) := by
  exact StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg9` is not written by this stretch. -/
theorem after0_keep_main_arg9 : StableHlo.after (hostOps0 (F := Ideal)) W (Proc.devRef .tc main_arg9) = W (Proc.devRef .tc main_arg9) := by
  exact StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg10` is not written by this stretch. -/
theorem after0_keep_main_arg10 : StableHlo.after (hostOps0 (F := Ideal)) W (Proc.devRef .tc main_arg10) = W (Proc.devRef .tc main_arg10) := by
  exact StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The second stretch -/

set_option maxHeartbeats 8000000 in
theorem after2_v42 : StableHlo.after (hostOps2 (F := Ideal)) W (Proc.devRef .tc main_v42)
    = aggOf (W (Proc.devRef .tc main_v5)) (W (Proc.devRef .tc main_v6)) (W (Proc.devRef .tc main_v26)) (W (Proc.devRef .tc main_v29)) := by
  after_results_simp
  rfl

theorem after2_v43 : StableHlo.after (hostOps2 (F := Ideal)) W (Proc.devRef .tc main_v43)
    = shapeCast _ (W (Proc.devRef .tc main_arg4)) shapeCasts_S128_S1x128 := by
  after_results
  rfl

theorem after2_v44 : StableHlo.after (hostOps2 (F := Ideal)) W (Proc.devRef .tc main_v44)
    = shapeCast _ (W (Proc.devRef .tc main_arg7)) shapeCasts_S128_S1x128 := by
  after_results
  rfl

theorem after2_v45 : StableHlo.after (hostOps2 (F := Ideal)) W (Proc.devRef .tc main_v45)
    = shapeCast _ (W (Proc.devRef .tc main_arg8)) shapeCasts_S128_S1x128 := by
  after_results
  rfl

/-- `main_v28` is not written by this stretch. -/
theorem after2_keep_main_v28 : StableHlo.after (hostOps2 (F := Ideal)) W (Proc.devRef .tc main_v28) = W (Proc.devRef .tc main_v28) := by
  exact StableHlo.after_of_forall_not_mem (b := Proc.devRef .tc main_v28) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_v5` is not written by this stretch. -/
theorem after2_keep_main_v5 : StableHlo.after (hostOps2 (F := Ideal)) W (Proc.devRef .tc main_v5) = W (Proc.devRef .tc main_v5) := by
  exact StableHlo.after_of_forall_not_mem (b := Proc.devRef .tc main_v5) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_v6` is not written by this stretch. -/
theorem after2_keep_main_v6 : StableHlo.after (hostOps2 (F := Ideal)) W (Proc.devRef .tc main_v6) = W (Proc.devRef .tc main_v6) := by
  exact StableHlo.after_of_forall_not_mem (b := Proc.devRef .tc main_v6) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_v26` is not written by this stretch. -/
theorem after2_keep_main_v26 : StableHlo.after (hostOps2 (F := Ideal)) W (Proc.devRef .tc main_v26) = W (Proc.devRef .tc main_v26) := by
  exact StableHlo.after_of_forall_not_mem (b := Proc.devRef .tc main_v26) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg5` is not written by this stretch. -/
theorem after2_keep_main_arg5 : StableHlo.after (hostOps2 (F := Ideal)) W (Proc.devRef .tc main_arg5) = W (Proc.devRef .tc main_arg5) := by
  exact StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg6` is not written by this stretch. -/
theorem after2_keep_main_arg6 : StableHlo.after (hostOps2 (F := Ideal)) W (Proc.devRef .tc main_arg6) = W (Proc.devRef .tc main_arg6) := by
  exact StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg9` is not written by this stretch. -/
theorem after2_keep_main_arg9 : StableHlo.after (hostOps2 (F := Ideal)) W (Proc.devRef .tc main_arg9) = W (Proc.devRef .tc main_arg9) := by
  exact StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- `main_arg10` is not written by this stretch. -/
theorem after2_keep_main_arg10 : StableHlo.after (hostOps2 (F := Ideal)) W (Proc.devRef .tc main_arg10) = W (Proc.devRef .tc main_arg10) := by
  exact StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The third stretch -/

set_option maxHeartbeats 8000000 in
theorem after4_v60 : StableHlo.after (hostOps4 (F := Ideal)) W (Proc.devRef .tc main_v60)
    = aggOf (W (Proc.devRef .tc main_v5)) (W (Proc.devRef .tc main_v6)) (W (Proc.devRef .tc main_v26)) (W (Proc.devRef .tc main_v47)) := by
  after_results_simp
  rfl

theorem after4_v61 : StableHlo.after (hostOps4 (F := Ideal)) W (Proc.devRef .tc main_v61)
    = shapeCast _ (W (Proc.devRef .tc main_arg6)) shapeCasts_S128_S1x128 := by
  after_results
  rfl

theorem after4_v62 : StableHlo.after (hostOps4 (F := Ideal)) W (Proc.devRef .tc main_v62)
    = shapeCast _ (W (Proc.devRef .tc main_arg9)) shapeCasts_S128_S1x128 := by
  after_results
  rfl

theorem after4_v63 : StableHlo.after (hostOps4 (F := Ideal)) W (Proc.devRef .tc main_v63)
    = shapeCast _ (W (Proc.devRef .tc main_arg10)) shapeCasts_S128_S1x128 := by
  after_results
  rfl

/-- `main_v46` is not written by this stretch. -/
theorem after4_keep_main_v46 : StableHlo.after (hostOps4 (F := Ideal)) W (Proc.devRef .tc main_v46) = W (Proc.devRef .tc main_v46) := by
  exact StableHlo.after_of_forall_not_mem (b := Proc.devRef .tc main_v46) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.Hand

end
-- ==== Proof.KernelValue.lean ====
/-
  The idealized kernel's result buffer read back through the run. The run's buffer contents at its eight segment
  boundaries are a fold from the launch memory; walked boundary by boundary, each buffer a later pipeline reads is:
  the edge lists, the per-edge norm and the ids column after the first host stretch; the looked-up rows x₀ after the
  lookup; x₀ · W₁ after the first projection; its aggregate and the [1, 128] views of b₁, g₁, β₁ after the second
  stretch; the first layer x₁ after the first layer norm; x₁ · W₂; its aggregate and the views of b₂, g₂, β₂; and the
  second layer in the result buffer. Buffers a segment does not write pass through it unchanged.
-/
import proofs.«415212_j29437705847415_3_alg».proof.Proof.Gen.KernelIdeal.Frame
import proofs.«415212_j29437705847415_3_alg».proof.Proof.Region0
import proofs.«415212_j29437705847415_3_alg».proof.Proof.Region1
import proofs.«415212_j29437705847415_3_alg».proof.Proof.Region2
import proofs.«415212_j29437705847415_3_alg».proof.Proof.Region3
import proofs.«415212_j29437705847415_3_alg».proof.Proof.Region4
import proofs.«415212_j29437705847415_3_alg».proof.Proof.KernelHost
import proofs.«415212_j29437705847415_3_alg».proof.Proof.HostChain
import proofs.«415212_j29437705847415_3_alg».proof.Proof.Spec
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

/-- An [a] array viewed as an [a, 1] column reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

variable (m : (ℓ : Loc nD τ sig) → Buf (Elt Ideal) ℓ) (ρ : Dev nD → PrngReg)

/-! ## After the first host stretch -/

theorem L1_v5 (c : Dev nD) : W1 m ρ c (Proc.devRef .tc main_v5) = srcK (m ((c : Thread nD τ).loc main_arg1)) :=
  after0_v5 (W0 m ρ c)

theorem L1_v6 (c : Dev nD) : W1 m ρ c (Proc.devRef .tc main_v6) = dstK (m ((c : Thread nD τ).loc main_arg1)) :=
  after0_v6 (W0 m ρ c)

theorem L1_v26 (c : Dev nD) : W1 m ρ c (Proc.devRef .tc main_v26) = normOf (srcK (m ((c : Thread nD τ).loc main_arg1))) (dstK (m ((c : Thread nD τ).loc main_arg1))) :=
  after0_v26 (W0 m ρ c)

theorem L1_v27 (c : Dev nD) : W1 m ρ c (Proc.devRef .tc main_v27) = shapeCast _ (m ((c : Thread nD τ).loc main_arg0)) shapeCasts_S50000_S50000x1 :=
  after0_v27 (W0 m ρ c)

theorem L1_arg2 (c : Dev nD) : W1 m ρ c (Proc.devRef .tc main_arg2) = (m ((c : Thread nD τ).loc main_arg2)) :=
  after0_keep_main_arg2 (W0 m ρ c)

theorem L1_arg3 (c : Dev nD) : W1 m ρ c (Proc.devRef .tc main_arg3) = (m ((c : Thread nD τ).loc main_arg3)) :=
  after0_keep_main_arg3 (W0 m ρ c)

theorem L1_arg4 (c : Dev nD) : W1 m ρ c (Proc.devRef .tc main_arg4) = (m ((c : Thread nD τ).loc main_arg4)) :=
  after0_keep_main_arg4 (W0 m ρ c)

theorem L1_arg5 (c : Dev nD) : W1 m ρ c (Proc.devRef .tc main_arg5) = (m ((c : Thread nD τ).loc main_arg5)) :=
  after0_keep_main_arg5 (W0 m ρ c)

theorem L1_arg6 (c : Dev nD) : W1 m ρ c (Proc.devRef .tc main_arg6) = (m ((c : Thread nD τ).loc main_arg6)) :=
  after0_keep_main_arg6 (W0 m ρ c)

theorem L1_arg7 (c : Dev nD) : W1 m ρ c (Proc.devRef .tc main_arg7) = (m ((c : Thread nD τ).loc main_arg7)) :=
  after0_keep_main_arg7 (W0 m ρ c)

theorem L1_arg8 (c : Dev nD) : W1 m ρ c (Proc.devRef .tc main_arg8) = (m ((c : Thread nD τ).loc main_arg8)) :=
  after0_keep_main_arg8 (W0 m ρ c)

theorem L1_arg9 (c : Dev nD) : W1 m ρ c (Proc.devRef .tc main_arg9) = (m ((c : Thread nD τ).loc main_arg9)) :=
  after0_keep_main_arg9 (W0 m ρ c)

theorem L1_arg10 (c : Dev nD) : W1 m ρ c (Proc.devRef .tc main_arg10) = (m ((c : Thread nD τ).loc main_arg10)) :=
  after0_keep_main_arg10 (W0 m ρ c)

theorem L2_v5 (c : Dev nD) : W2 m ρ c (Proc.devRef .tc main_v5) = srcK (m ((c : Thread nD τ).loc main_arg1)) :=
  (W2_of_ne m ρ c main_v5 (by decide)).trans (L1_v5 m ρ c)

theorem L2_v6 (c : Dev nD) : W2 m ρ c (Proc.devRef .tc main_v6) = dstK (m ((c : Thread nD τ).loc main_arg1)) :=
  (W2_of_ne m ρ c main_v6 (by decide)).trans (L1_v6 m ρ c)

theorem L2_v26 (c : Dev nD) : W2 m ρ c (Proc.devRef .tc main_v26) = normOf (srcK (m ((c : Thread nD τ).loc main_arg1))) (dstK (m ((c : Thread nD τ).loc main_arg1))) :=
  (W2_of_ne m ρ c main_v26 (by decide)).trans (L1_v26 m ρ c)

theorem L2_arg3 (c : Dev nD) : W2 m ρ c (Proc.devRef .tc main_arg3) = (m ((c : Thread nD τ).loc main_arg3)) :=
  (W2_of_ne m ρ c main_arg3 (by decide)).trans (L1_arg3 m ρ c)

theorem L2_arg4 (c : Dev nD) : W2 m ρ c (Proc.devRef .tc main_arg4) = (m ((c : Thread nD τ).loc main_arg4)) :=
  (W2_of_ne m ρ c main_arg4 (by decide)).trans (L1_arg4 m ρ c)

theorem L2_arg5 (c : Dev nD) : W2 m ρ c (Proc.devRef .tc main_arg5) = (m ((c : Thread nD τ).loc main_arg5)) :=
  (W2_of_ne m ρ c main_arg5 (by decide)).trans (L1_arg5 m ρ c)

theorem L2_arg6 (c : Dev nD) : W2 m ρ c (Proc.devRef .tc main_arg6) = (m ((c : Thread nD τ).loc main_arg6)) :=
  (W2_of_ne m ρ c main_arg6 (by decide)).trans (L1_arg6 m ρ c)

theorem L2_arg7 (c : Dev nD) : W2 m ρ c (Proc.devRef .tc main_arg7) = (m ((c : Thread nD τ).loc main_arg7)) :=
  (W2_of_ne m ρ c main_arg7 (by decide)).trans (L1_arg7 m ρ c)

theorem L2_arg8 (c : Dev nD) : W2 m ρ c (Proc.devRef .tc main_arg8) = (m ((c : Thread nD τ).loc main_arg8)) :=
  (W2_of_ne m ρ c main_arg8 (by decide)).trans (L1_arg8 m ρ c)

theorem L2_arg9 (c : Dev nD) : W2 m ρ c (Proc.devRef .tc main_arg9) = (m ((c : Thread nD τ).loc main_arg9)) :=
  (W2_of_ne m ρ c main_arg9 (by decide)).trans (L1_arg9 m ρ c)

theorem L2_arg10 (c : Dev nD) : W2 m ρ c (Proc.devRef .tc main_arg10) = (m ((c : Thread nD τ).loc main_arg10)) :=
  (W2_of_ne m ρ c main_arg10 (by decide)).trans (L1_arg10 m ρ c)

/-- Equal arguments give equal layer norms. -/
theorem lnF_congr {x x' agg agg' : (⟨2, ![50000, 128]⟩ : Shape).Idx → EReal} {b b' g g' beta beta' : Fin 128 → EReal}
    (hx : x = x') (ha : agg = agg') (hb : b = b') (hg : g = g') (hbeta : beta = beta') :
    Cert.Gcn.lnF x agg b g beta = Cert.Gcn.lnF x' agg' b' g' beta' := by
  subst hx ha hb hg hbeta; rfl

/-- Equal arguments give equal aggregates. -/
theorem aggOf_congr {s s' d d' : IVec S550000 32} {n n' : FVec Ideal S550000 .f32} {h h' : FVec Ideal S50000x128 .f32}
    (hs : s = s') (hd : d = d') (hn : n = n') (hh : h = h') : aggOf s d n h = aggOf s' d' n' h' := by
  subst hs hd hn hh; rfl

/-- A [128] vector viewed as a [1, 128] row, read along the row, is the vector. -/
theorem row_of_cast {v : S1x128.Idx → EReal} {a : FVec Ideal S128 .f32} (h : v = shapeCast S1x128 a shapeCasts_S128_S1x128) :
    (fun k : Fin 128 => v (ix2 (0 : Fin 1) k)) = fun k => a (ix1 k) :=
  funext fun k => (congrFun h (ix2 (0 : Fin 1) k)).trans (shapeCast_a_1a_apply a _ 0 k)

/-! ## After the lookup -/

/-- The ids column the lookup finds is the ids argument. -/
theorem idsOf_V1 (c : Dev nD) (r : Fin 50000) : idsOf (V1 m ρ) c r = ((m ((c : Thread nD τ).loc main_arg0)) : S50000.Idx → BitVec 32) (ix1 r) :=
  (congrFun (L1_v27 m ρ c) (ix2 r (0 : Fin 1))).trans (shapeCast_a_a1_apply _ _ r 0)

theorem L2_v28 (c : Dev nD) (hids : ∀ r : Fin 50000, (((m ((c : Thread nD τ).loc main_arg0)) : S50000.Idx → BitVec 32) (ix1 r)).toNat < 512) : W2 m ρ c (Proc.devRef .tc main_v28) = (Cert.Gcn.embF (fun r => ((m ((c : Thread nD τ).loc main_arg0)) : S50000.Idx → BitVec 32) (ix1 r)) (m ((c : Thread nD τ).loc main_arg2))) :=
  (W2_arr m ρ c 2).trans ((region0_final (V1 m ρ) c (fun r => by rw [idsOf_V1]; exact hids r)).trans
    (congrArg₂ Cert.Gcn.embF (funext (idsOf_V1 m ρ c)) (L1_arg2 m ρ c)))

/-! ## After the first projection -/

theorem L3_v29 (c : Dev nD) (hids : ∀ r : Fin 50000, (((m ((c : Thread nD τ).loc main_arg0)) : S50000.Idx → BitVec 32) (ix1 r)).toNat < 512) : W3 m ρ c (Proc.devRef .tc main_v29) = (Cert.Gcn.linF (Cert.Gcn.embF (fun r => ((m ((c : Thread nD τ).loc main_arg0)) : S50000.Idx → BitVec 32) (ix1 r)) (m ((c : Thread nD τ).loc main_arg2))) (m ((c : Thread nD τ).loc main_arg3))) :=
  (W3_arr m ρ c 2).trans ((region1_final (V2 m ρ) c).trans (congrArg₂ Cert.Gcn.linF (L2_v28 m ρ c hids) (L2_arg3 m ρ c)))

theorem L3_v28 (c : Dev nD) (hids : ∀ r : Fin 50000, (((m ((c : Thread nD τ).loc main_arg0)) : S50000.Idx → BitVec 32) (ix1 r)).toNat < 512) : W3 m ρ c (Proc.devRef .tc main_v28) = (Cert.Gcn.embF (fun r => ((m ((c : Thread nD τ).loc main_arg0)) : S50000.Idx → BitVec 32) (ix1 r)) (m ((c : Thread nD τ).loc main_arg2))) :=
  (W3_arr m ρ c 0).trans ((((dat1 (V2 m ρ) c).arrAt_in 0 rfl _).trans (A_eq1 (V2 m ρ) c 0)).trans (L2_v28 m ρ c hids))

theorem L3_v5 (c : Dev nD) : W3 m ρ c (Proc.devRef .tc main_v5) = srcK (m ((c : Thread nD τ).loc main_arg1)) :=
  (W3_of_ne m ρ c main_v5 (by decide)).trans (L2_v5 m ρ c)

theorem L3_v6 (c : Dev nD) : W3 m ρ c (Proc.devRef .tc main_v6) = dstK (m ((c : Thread nD τ).loc main_arg1)) :=
  (W3_of_ne m ρ c main_v6 (by decide)).trans (L2_v6 m ρ c)

theorem L3_v26 (c : Dev nD) : W3 m ρ c (Proc.devRef .tc main_v26) = normOf (srcK (m ((c : Thread nD τ).loc main_arg1))) (dstK (m ((c : Thread nD τ).loc main_arg1))) :=
  (W3_of_ne m ρ c main_v26 (by decide)).trans (L2_v26 m ρ c)

theorem L3_arg4 (c : Dev nD) : W3 m ρ c (Proc.devRef .tc main_arg4) = (m ((c : Thread nD τ).loc main_arg4)) :=
  (W3_of_ne m ρ c main_arg4 (by decide)).trans (L2_arg4 m ρ c)

theorem L3_arg5 (c : Dev nD) : W3 m ρ c (Proc.devRef .tc main_arg5) = (m ((c : Thread nD τ).loc main_arg5)) :=
  (W3_of_ne m ρ c main_arg5 (by decide)).trans (L2_arg5 m ρ c)

theorem L3_arg6 (c : Dev nD) : W3 m ρ c (Proc.devRef .tc main_arg6) = (m ((c : Thread nD τ).loc main_arg6)) :=
  (W3_of_ne m ρ c main_arg6 (by decide)).trans (L2_arg6 m ρ c)

theorem L3_arg7 (c : Dev nD) : W3 m ρ c (Proc.devRef .tc main_arg7) = (m ((c : Thread nD τ).loc main_arg7)) :=
  (W3_of_ne m ρ c main_arg7 (by decide)).trans (L2_arg7 m ρ c)

theorem L3_arg8 (c : Dev nD) : W3 m ρ c (Proc.devRef .tc main_arg8) = (m ((c : Thread nD τ).loc main_arg8)) :=
  (W3_of_ne m ρ c main_arg8 (by decide)).trans (L2_arg8 m ρ c)

theorem L3_arg9 (c : Dev nD) : W3 m ρ c (Proc.devRef .tc main_arg9) = (m ((c : Thread nD τ).loc main_arg9)) :=
  (W3_of_ne m ρ c main_arg9 (by decide)).trans (L2_arg9 m ρ c)

theorem L3_arg10 (c : Dev nD) : W3 m ρ c (Proc.devRef .tc main_arg10) = (m ((c : Thread nD τ).loc main_arg10)) :=
  (W3_of_ne m ρ c main_arg10 (by decide)).trans (L2_arg10 m ρ c)

/-! ## After the second host stretch -/

theorem L4_v42 (c : Dev nD) (hids : ∀ r : Fin 50000, (((m ((c : Thread nD τ).loc main_arg0)) : S50000.Idx → BitVec 32) (ix1 r)).toNat < 512) : W4 m ρ c (Proc.devRef .tc main_v42) = (aggK (m ((c : Thread nD τ).loc main_arg1)) (Cert.Gcn.linF (Cert.Gcn.embF (fun r => ((m ((c : Thread nD τ).loc main_arg0)) : S50000.Idx → BitVec 32) (ix1 r)) (m ((c : Thread nD τ).loc main_arg2))) (m ((c : Thread nD τ).loc main_arg3)))) :=
  (after2_v42 (W3 m ρ c)).trans (aggOf_congr (L3_v5 m ρ c) (L3_v6 m ρ c) (L3_v26 m ρ c) (L3_v29 m ρ c hids))

theorem L4_v43 (c : Dev nD) : W4 m ρ c (Proc.devRef .tc main_v43) = (shapeCast S1x128 ((m ((c : Thread nD τ).loc main_arg4)) : FVec Ideal S128 .f32) shapeCasts_S128_S1x128) :=
  (after2_v43 (W3 m ρ c)).trans (congrArg (fun a : FVec Ideal S128 .f32 => shapeCast S1x128 a shapeCasts_S128_S1x128) (L3_arg4 m ρ c))

theorem L4_v44 (c : Dev nD) : W4 m ρ c (Proc.devRef .tc main_v44) = (shapeCast S1x128 ((m ((c : Thread nD τ).loc main_arg7)) : FVec Ideal S128 .f32) shapeCasts_S128_S1x128) :=
  (after2_v44 (W3 m ρ c)).trans (congrArg (fun a : FVec Ideal S128 .f32 => shapeCast S1x128 a shapeCasts_S128_S1x128) (L3_arg7 m ρ c))

theorem L4_v45 (c : Dev nD) : W4 m ρ c (Proc.devRef .tc main_v45) = (shapeCast S1x128 ((m ((c : Thread nD τ).loc main_arg8)) : FVec Ideal S128 .f32) shapeCasts_S128_S1x128) :=
  (after2_v45 (W3 m ρ c)).trans (congrArg (fun a : FVec Ideal S128 .f32 => shapeCast S1x128 a shapeCasts_S128_S1x128) (L3_arg8 m ρ c))

theorem L4_v28 (c : Dev nD) (hids : ∀ r : Fin 50000, (((m ((c : Thread nD τ).loc main_arg0)) : S50000.Idx → BitVec 32) (ix1 r)).toNat < 512) : W4 m ρ c (Proc.devRef .tc main_v28) = (Cert.Gcn.embF (fun r => ((m ((c : Thread nD τ).loc main_arg0)) : S50000.Idx → BitVec 32) (ix1 r)) (m ((c : Thread nD τ).loc main_arg2))) :=
  (after2_keep_main_v28 (W3 m ρ c)).trans (L3_v28 m ρ c hids)

theorem L4_v5 (c : Dev nD) : W4 m ρ c (Proc.devRef .tc main_v5) = srcK (m ((c : Thread nD τ).loc main_arg1)) :=
  (after2_keep_main_v5 (W3 m ρ c)).trans (L3_v5 m ρ c)

theorem L4_v6 (c : Dev nD) : W4 m ρ c (Proc.devRef .tc main_v6) = dstK (m ((c : Thread nD τ).loc main_arg1)) :=
  (after2_keep_main_v6 (W3 m ρ c)).trans (L3_v6 m ρ c)

theorem L4_v26 (c : Dev nD) : W4 m ρ c (Proc.devRef .tc main_v26) = normOf (srcK (m ((c : Thread nD τ).loc main_arg1))) (dstK (m ((c : Thread nD τ).loc main_arg1))) :=
  (after2_keep_main_v26 (W3 m ρ c)).trans (L3_v26 m ρ c)

theorem L4_arg5 (c : Dev nD) : W4 m ρ c (Proc.devRef .tc main_arg5) = (m ((c : Thread nD τ).loc main_arg5)) :=
  (after2_keep_main_arg5 (W3 m ρ c)).trans (L3_arg5 m ρ c)

theorem L4_arg6 (c : Dev nD) : W4 m ρ c (Proc.devRef .tc main_arg6) = (m ((c : Thread nD τ).loc main_arg6)) :=
  (after2_keep_main_arg6 (W3 m ρ c)).trans (L3_arg6 m ρ c)

theorem L4_arg9 (c : Dev nD) : W4 m ρ c (Proc.devRef .tc main_arg9) = (m ((c : Thread nD τ).loc main_arg9)) :=
  (after2_keep_main_arg9 (W3 m ρ c)).trans (L3_arg9 m ρ c)

theorem L4_arg10 (c : Dev nD) : W4 m ρ c (Proc.devRef .tc main_arg10) = (m ((c : Thread nD τ).loc main_arg10)) :=
  (after2_keep_main_arg10 (W3 m ρ c)).trans (L3_arg10 m ρ c)

/-! ## After the first layer norm -/

theorem L5_v46 (c : Dev nD) (hids : ∀ r : Fin 50000, (((m ((c : Thread nD τ).loc main_arg0)) : S50000.Idx → BitVec 32) (ix1 r)).toNat < 512) : W5 m ρ c (Proc.devRef .tc main_v46) = (Cert.Gcn.lnF (Cert.Gcn.embF (fun r => ((m ((c : Thread nD τ).loc main_arg0)) : S50000.Idx → BitVec 32) (ix1 r)) (m ((c : Thread nD τ).loc main_arg2))) (aggK (m ((c : Thread nD τ).loc main_arg1)) (Cert.Gcn.linF (Cert.Gcn.embF (fun r => ((m ((c : Thread nD τ).loc main_arg0)) : S50000.Idx → BitVec 32) (ix1 r)) (m ((c : Thread nD τ).loc main_arg2))) (m ((c : Thread nD τ).loc main_arg3)))) (fun k => ((m ((c : Thread nD τ).loc main_arg4)) : S128.Idx → EReal) (ix1 k)) (fun k => ((m ((c : Thread nD τ).loc main_arg7)) : S128.Idx → EReal) (ix1 k)) (fun k => ((m ((c : Thread nD τ).loc main_arg8)) : S128.Idx → EReal) (ix1 k))) :=
  (W5_arr m ρ c 5).trans ((region2_final (V4 m ρ) c).trans
    (lnF_congr (L4_v28 m ρ c hids) (L4_v42 m ρ c hids) (row_of_cast (L4_v43 m ρ c)) (row_of_cast (L4_v44 m ρ c)) (row_of_cast (L4_v45 m ρ c))))

theorem L5_v5 (c : Dev nD) : W5 m ρ c (Proc.devRef .tc main_v5) = srcK (m ((c : Thread nD τ).loc main_arg1)) :=
  (W5_of_ne m ρ c main_v5 (by decide)).trans (L4_v5 m ρ c)

theorem L5_v6 (c : Dev nD) : W5 m ρ c (Proc.devRef .tc main_v6) = dstK (m ((c : Thread nD τ).loc main_arg1)) :=
  (W5_of_ne m ρ c main_v6 (by decide)).trans (L4_v6 m ρ c)

theorem L5_v26 (c : Dev nD) : W5 m ρ c (Proc.devRef .tc main_v26) = normOf (srcK (m ((c : Thread nD τ).loc main_arg1))) (dstK (m ((c : Thread nD τ).loc main_arg1))) :=
  (W5_of_ne m ρ c main_v26 (by decide)).trans (L4_v26 m ρ c)

theorem L5_arg5 (c : Dev nD) : W5 m ρ c (Proc.devRef .tc main_arg5) = (m ((c : Thread nD τ).loc main_arg5)) :=
  (W5_of_ne m ρ c main_arg5 (by decide)).trans (L4_arg5 m ρ c)

theorem L5_arg6 (c : Dev nD) : W5 m ρ c (Proc.devRef .tc main_arg6) = (m ((c : Thread nD τ).loc main_arg6)) :=
  (W5_of_ne m ρ c main_arg6 (by decide)).trans (L4_arg6 m ρ c)

theorem L5_arg9 (c : Dev nD) : W5 m ρ c (Proc.devRef .tc main_arg9) = (m ((c : Thread nD τ).loc main_arg9)) :=
  (W5_of_ne m ρ c main_arg9 (by decide)).trans (L4_arg9 m ρ c)

theorem L5_arg10 (c : Dev nD) : W5 m ρ c (Proc.devRef .tc main_arg10) = (m ((c : Thread nD τ).loc main_arg10)) :=
  (W5_of_ne m ρ c main_arg10 (by decide)).trans (L4_arg10 m ρ c)

/-! ## After the second projection -/

theorem L6_v47 (c : Dev nD) (hids : ∀ r : Fin 50000, (((m ((c : Thread nD τ).loc main_arg0)) : S50000.Idx → BitVec 32) (ix1 r)).toNat < 512) : W6 m ρ c (Proc.devRef .tc main_v47) = (Cert.Gcn.linF (Cert.Gcn.lnF (Cert.Gcn.embF (fun r => ((m ((c : Thread nD τ).loc main_arg0)) : S50000.Idx → BitVec 32) (ix1 r)) (m ((c : Thread nD τ).loc main_arg2))) (aggK (m ((c : Thread nD τ).loc main_arg1)) (Cert.Gcn.linF (Cert.Gcn.embF (fun r => ((m ((c : Thread nD τ).loc main_arg0)) : S50000.Idx → BitVec 32) (ix1 r)) (m ((c : Thread nD τ).loc main_arg2))) (m ((c : Thread nD τ).loc main_arg3)))) (fun k => ((m ((c : Thread nD τ).loc main_arg4)) : S128.Idx → EReal) (ix1 k)) (fun k => ((m ((c : Thread nD τ).loc main_arg7)) : S128.Idx → EReal) (ix1 k)) (fun k => ((m ((c : Thread nD τ).loc main_arg8)) : S128.Idx → EReal) (ix1 k))) (m ((c : Thread nD τ).loc main_arg5))) :=
  (W6_arr m ρ c 2).trans ((region3_final (V5 m ρ) c).trans (congrArg₂ Cert.Gcn.linF (L5_v46 m ρ c hids) (L5_arg5 m ρ c)))

theorem L6_v46 (c : Dev nD) (hids : ∀ r : Fin 50000, (((m ((c : Thread nD τ).loc main_arg0)) : S50000.Idx → BitVec 32) (ix1 r)).toNat < 512) : W6 m ρ c (Proc.devRef .tc main_v46) = (Cert.Gcn.lnF (Cert.Gcn.embF (fun r => ((m ((c : Thread nD τ).loc main_arg0)) : S50000.Idx → BitVec 32) (ix1 r)) (m ((c : Thread nD τ).loc main_arg2))) (aggK (m ((c : Thread nD τ).loc main_arg1)) (Cert.Gcn.linF (Cert.Gcn.embF (fun r => ((m ((c : Thread nD τ).loc main_arg0)) : S50000.Idx → BitVec 32) (ix1 r)) (m ((c : Thread nD τ).loc main_arg2))) (m ((c : Thread nD τ).loc main_arg3)))) (fun k => ((m ((c : Thread nD τ).loc main_arg4)) : S128.Idx → EReal) (ix1 k)) (fun k => ((m ((c : Thread nD τ).loc main_arg7)) : S128.Idx → EReal) (ix1 k)) (fun k => ((m ((c : Thread nD τ).loc main_arg8)) : S128.Idx → EReal) (ix1 k))) :=
  (W6_arr m ρ c 0).trans ((((dat3 (V5 m ρ) c).arrAt_in 0 rfl _).trans (A_eq3 (V5 m ρ) c 0)).trans (L5_v46 m ρ c hids))

theorem L6_v5 (c : Dev nD) : W6 m ρ c (Proc.devRef .tc main_v5) = srcK (m ((c : Thread nD τ).loc main_arg1)) :=
  (W6_of_ne m ρ c main_v5 (by decide)).trans (L5_v5 m ρ c)

theorem L6_v6 (c : Dev nD) : W6 m ρ c (Proc.devRef .tc main_v6) = dstK (m ((c : Thread nD τ).loc main_arg1)) :=
  (W6_of_ne m ρ c main_v6 (by decide)).trans (L5_v6 m ρ c)

theorem L6_v26 (c : Dev nD) : W6 m ρ c (Proc.devRef .tc main_v26) = normOf (srcK (m ((c : Thread nD τ).loc main_arg1))) (dstK (m ((c : Thread nD τ).loc main_arg1))) :=
  (W6_of_ne m ρ c main_v26 (by decide)).trans (L5_v26 m ρ c)

theorem L6_arg6 (c : Dev nD) : W6 m ρ c (Proc.devRef .tc main_arg6) = (m ((c : Thread nD τ).loc main_arg6)) :=
  (W6_of_ne m ρ c main_arg6 (by decide)).trans (L5_arg6 m ρ c)

theorem L6_arg9 (c : Dev nD) : W6 m ρ c (Proc.devRef .tc main_arg9) = (m ((c : Thread nD τ).loc main_arg9)) :=
  (W6_of_ne m ρ c main_arg9 (by decide)).trans (L5_arg9 m ρ c)

theorem L6_arg10 (c : Dev nD) : W6 m ρ c (Proc.devRef .tc main_arg10) = (m ((c : Thread nD τ).loc main_arg10)) :=
  (W6_of_ne m ρ c main_arg10 (by decide)).trans (L5_arg10 m ρ c)

/-! ## After the third host stretch -/

theorem L7_v60 (c : Dev nD) (hids : ∀ r : Fin 50000, (((m ((c : Thread nD τ).loc main_arg0)) : S50000.Idx → BitVec 32) (ix1 r)).toNat < 512) : W7 m ρ c (Proc.devRef .tc main_v60) = (aggK (m ((c : Thread nD τ).loc main_arg1)) (Cert.Gcn.linF (Cert.Gcn.lnF (Cert.Gcn.embF (fun r => ((m ((c : Thread nD τ).loc main_arg0)) : S50000.Idx → BitVec 32) (ix1 r)) (m ((c : Thread nD τ).loc main_arg2))) (aggK (m ((c : Thread nD τ).loc main_arg1)) (Cert.Gcn.linF (Cert.Gcn.embF (fun r => ((m ((c : Thread nD τ).loc main_arg0)) : S50000.Idx → BitVec 32) (ix1 r)) (m ((c : Thread nD τ).loc main_arg2))) (m ((c : Thread nD τ).loc main_arg3)))) (fun k => ((m ((c : Thread nD τ).loc main_arg4)) : S128.Idx → EReal) (ix1 k)) (fun k => ((m ((c : Thread nD τ).loc main_arg7)) : S128.Idx → EReal) (ix1 k)) (fun k => ((m ((c : Thread nD τ).loc main_arg8)) : S128.Idx → EReal) (ix1 k))) (m ((c : Thread nD τ).loc main_arg5)))) :=
  (after4_v60 (W6 m ρ c)).trans (aggOf_congr (L6_v5 m ρ c) (L6_v6 m ρ c) (L6_v26 m ρ c) (L6_v47 m ρ c hids))

theorem L7_v61 (c : Dev nD) : W7 m ρ c (Proc.devRef .tc main_v61) = (shapeCast S1x128 ((m ((c : Thread nD τ).loc main_arg6)) : FVec Ideal S128 .f32) shapeCasts_S128_S1x128) :=
  (after4_v61 (W6 m ρ c)).trans (congrArg (fun a : FVec Ideal S128 .f32 => shapeCast S1x128 a shapeCasts_S128_S1x128) (L6_arg6 m ρ c))

theorem L7_v62 (c : Dev nD) : W7 m ρ c (Proc.devRef .tc main_v62) = (shapeCast S1x128 ((m ((c : Thread nD τ).loc main_arg9)) : FVec Ideal S128 .f32) shapeCasts_S128_S1x128) :=
  (after4_v62 (W6 m ρ c)).trans (congrArg (fun a : FVec Ideal S128 .f32 => shapeCast S1x128 a shapeCasts_S128_S1x128) (L6_arg9 m ρ c))

theorem L7_v63 (c : Dev nD) : W7 m ρ c (Proc.devRef .tc main_v63) = (shapeCast S1x128 ((m ((c : Thread nD τ).loc main_arg10)) : FVec Ideal S128 .f32) shapeCasts_S128_S1x128) :=
  (after4_v63 (W6 m ρ c)).trans (congrArg (fun a : FVec Ideal S128 .f32 => shapeCast S1x128 a shapeCasts_S128_S1x128) (L6_arg10 m ρ c))

theorem L7_v46 (c : Dev nD) (hids : ∀ r : Fin 50000, (((m ((c : Thread nD τ).loc main_arg0)) : S50000.Idx → BitVec 32) (ix1 r)).toNat < 512) : W7 m ρ c (Proc.devRef .tc main_v46) = (Cert.Gcn.lnF (Cert.Gcn.embF (fun r => ((m ((c : Thread nD τ).loc main_arg0)) : S50000.Idx → BitVec 32) (ix1 r)) (m ((c : Thread nD τ).loc main_arg2))) (aggK (m ((c : Thread nD τ).loc main_arg1)) (Cert.Gcn.linF (Cert.Gcn.embF (fun r => ((m ((c : Thread nD τ).loc main_arg0)) : S50000.Idx → BitVec 32) (ix1 r)) (m ((c : Thread nD τ).loc main_arg2))) (m ((c : Thread nD τ).loc main_arg3)))) (fun k => ((m ((c : Thread nD τ).loc main_arg4)) : S128.Idx → EReal) (ix1 k)) (fun k => ((m ((c : Thread nD τ).loc main_arg7)) : S128.Idx → EReal) (ix1 k)) (fun k => ((m ((c : Thread nD τ).loc main_arg8)) : S128.Idx → EReal) (ix1 k))) :=
  (after4_keep_main_v46 (W6 m ρ c)).trans (L6_v46 m ρ c hids)

/-! ## The result -/

/-- The two-layer network's value from its eleven arguments, the aggregation being the kernel program's chain. -/
def kernelValue (ids : IVec S50000 32) (E : IVec S2x500000 32) (emb : FVec Ideal S512x128 .f32)
    (W1 : FVec Ideal S128x128 .f32) (b1 : FVec Ideal S128 .f32) (W2 : FVec Ideal S128x128 .f32) (b2 g1 beta1 g2 beta2 : FVec Ideal S128 .f32) :
    FVec Ideal S50000x128 .f32 :=
  Cert.Gcn.lnF
    (Cert.Gcn.lnF (Cert.Gcn.embF (fun r => ids (ix1 r)) emb)
      (aggK E (Cert.Gcn.linF (Cert.Gcn.embF (fun r => ids (ix1 r)) emb) W1))
      (fun k => b1 (ix1 k)) (fun k => g1 (ix1 k)) (fun k => beta1 (ix1 k)))
    (aggK E (Cert.Gcn.linF
      (Cert.Gcn.lnF (Cert.Gcn.embF (fun r => ids (ix1 r)) emb)
        (aggK E (Cert.Gcn.linF (Cert.Gcn.embF (fun r => ids (ix1 r)) emb) W1))
        (fun k => b1 (ix1 k)) (fun k => g1 (ix1 k)) (fun k => beta1 (ix1 k))) W2))
    (fun k => b2 (ix1 k)) (fun k => g2 (ix1 k)) (fun k => beta2 (ix1 k))

theorem W8_v64 (c : Dev nD) (hids : ∀ r : Fin 50000, (((m ((c : Thread nD τ).loc main_arg0)) : S50000.Idx → BitVec 32) (ix1 r)).toNat < 512) : W8 m ρ c (Proc.devRef .tc main_v64) = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 5).trans ((region4_final (V7 m ρ) c).trans
    (lnF_congr (L7_v46 m ρ c hids) (L7_v60 m ρ c hids) (row_of_cast (L7_v61 m ρ c)) (row_of_cast (L7_v62 m ρ c)) (row_of_cast (L7_v63 m ρ c))))

end Cert.KernelIdeal.Hand

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.RefStages.lean ====
/-
  The reference's three dense stages, each named as one function of abstract arrays: the lookup (ids below zero
  moved up by 512, then a gather of table rows), the projection (the host's matrix product), and the residual layer
  norm on the rows x + (agg + b) (row mean, centred rows, mean of squares, the reciprocal square root of variance + ε,
  scale and shift).
-/
import proofs.«415212_j29437705847415_3_alg».proof.ReferenceIdeal
import proofs.«415212_j29437705847415_3_alg».proof.Proof.Spec
import proofs.«415212_j29437705847415_3_alg».proof.Proof.LibRowOps
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.ReferenceIdeal.Hand

open Cert.ReferenceIdeal

variable [Cert.ReferenceIdeal.Facts]
open Cert.ReferenceIdeal.Facts₀ Cert.ReferenceIdeal.Facts

/-- The reference's lookup: ids below zero moved up by 512, then the gather of table rows. -/
def refEmb (ids : IVec S50000 32) (emb : FVec Ideal S512x128 .f32) : FVec Ideal S50000x128 .f32 :=
  Host.gather gather_S512x128_S50000x1_S50000x128_1_0_n_n_0_1_1128 emb (broadcastInDim S50000x1 ![0] bcast_S50000_S50000x1_0 (select (cmpi .slt ids (broadcastInDim S50000 ![] bcast_S_S50000 (constantI S_ 32 0#32))) (addi ids (broadcastInDim S50000 ![] bcast_S_S50000 (constantI S_ 32 512#32))) ids))

/-- The reference's projection. -/
def refLin (x : FVec Ideal S50000x128 .f32) (W : FVec Ideal S128x128 .f32) : FVec Ideal S50000x128 .f32 :=
  Host.dotGeneral dot_S50000x128_S128x128_S50000x128_1_0_0_1_n_n none x W

/-- The reference's residual row: x + (agg + b), b spread over the rows. -/
def refY (x agg : FVec Ideal S50000x128 .f32) (b : FVec Ideal S128 .f32) : FVec Ideal S50000x128 .f32 :=
  addf x (addf agg (broadcastInDim S50000x128 ![0, 1] bcast_S1x128_S50000x128_0_1 (broadcastInDim S1x128 ![1] bcast_S128_S1x128_1 b)))

/-- The reference's row means, one per row, kept as a column. -/
def refMu (y : FVec Ideal S50000x128 .f32) : FVec Ideal S50000x1 .f32 :=
  Host.divf (broadcastInDim S50000x1 ![0] bcast_S50000_S50000x1_0 (Host.reduceAdd y (constant S_ .f32 0x00000000#32) reducesTo_S50000x128_S50000_d1 h_S_)) (broadcastInDim S50000x1 ![] bcast_S_S50000x1 (constant S_ .f32 0x43000000#32))

/-- The reference's centred rows. -/
def refD (y : FVec Ideal S50000x128 .f32) : FVec Ideal S50000x128 .f32 :=
  subf y (broadcastInDim S50000x128 ![0, 1] bcast_S50000x1_S50000x128_0_1 (refMu y))

/-- The reference's layer norm of the rows y, scaled by g and shifted by β. -/
def refLnOf (y : FVec Ideal S50000x128 .f32) (g beta : FVec Ideal S128 .f32) : FVec Ideal S50000x128 .f32 :=
  addf (mulf (mulf (subf y (broadcastInDim S50000x128 ![0, 1] bcast_S50000x1_S50000x128_0_1 (refMu y))) (broadcastInDim S50000x128 ![0, 1] bcast_S50000x1_S50000x128_0_1 (Host.rsqrt (addf (Host.divf (broadcastInDim S50000x1 ![0] bcast_S50000_S50000x1_0 (Host.reduceAdd (mulf (refD y) (refD y)) (constant S_ .f32 0x00000000#32) reducesTo_S50000x128_S50000_d1 h_S_)) (broadcastInDim S50000x1 ![] bcast_S_S50000x1 (constant S_ .f32 0x43000000#32))) (broadcastInDim S50000x1 ![] bcast_S_S50000x1 (constant S_ .f32 0x3727C5AC#32)))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 beta))

/-- The reference's residual layer norm. -/
def refLn (x agg : FVec Ideal S50000x128 .f32) (b g beta : FVec Ideal S128 .f32) : FVec Ideal S50000x128 .f32 :=
  refLnOf (refY x agg b) g beta

end Cert.ReferenceIdeal.Hand

end
-- ==== Proof.RefChain.lean ====
/-
  The neighbourhood aggregation, named. From the edge list E (two rows of 500000 node numbers: sources and
  destinations) both programs build, with the same host operations in the same order:
  * src, dst: the sources and the destinations with the 50000 self loops 0, 1, …, 49999 appended;
  * wrap s: a negative node number moved up by 50000;
  * dis: the reciprocal square root of each node's degree, the degree being the sum of 1 over the (self-looped)
    edges whose destination is the node;
  * norm: per edge, dis at its source times dis at its destination;
  * agg h: the rows of h gathered at the edges' sources, each scaled by its edge's norm, and summed onto the rows
    numbered by the edges' destinations.
  None of these is ever opened: the two programs apply them to equal arguments.
-/
import proofs.«415212_j29437705847415_3_alg».proof.ReferenceIdeal
import Idealize.ShloMosaic.PureOps.Ideal

noncomputable section

open Idealize.ShloMosaic

namespace Cert.ReferenceIdeal.Hand

open Cert.ReferenceIdeal

variable [Cert.ReferenceIdeal.Facts]
open Cert.ReferenceIdeal.Facts₀ Cert.ReferenceIdeal.Facts

/-- The edges' sources followed by the self loops. -/
def srcR (E : IVec S2x500000 32) : IVec S550000 32 :=
  concatenate S550000 0 [⟨S500000, shapeCast _ (extractStridedSlice S1x500000 ![0, 0] E slices_S2x500000_S1x500000_0_0) shapeCasts_S1x500000_S500000⟩, ⟨S50000, iotaInDim S50000 32 0⟩] concatenates_S500000_S50000_S550000_d0

/-- The edges' destinations followed by the self loops. -/
def dstR (E : IVec S2x500000 32) : IVec S550000 32 :=
  concatenate S550000 0 [⟨S500000, shapeCast _ (extractStridedSlice S1x500000 ![1, 0] E slices_S2x500000_S1x500000_1_0) shapeCasts_S1x500000_S500000⟩, ⟨S50000, iotaInDim S50000 32 0⟩] concatenates_S500000_S50000_S550000_d0

/-- A negative node number moved up by 50000. -/
def wrapR (s : IVec S550000 32) : IVec S550000 32 :=
  select (cmpi .slt s (broadcastInDim S550000 ![] bcast_S_S550000 (constantI S_ 32 0#32))) (addi s (broadcastInDim S550000 ![] bcast_S_S550000 (constantI S_ 32 50000#32))) s

/-- Each node's degree to the power −1/2. -/
def disR (dst : IVec S550000 32) : FVec Ideal S50000 .f32 :=
  Host.rsqrt (Host.scatterAdd scatter_S50000_S550000x1_S550000_n_0_0_1 (broadcastInDim S50000 ![] bcast_S_S50000 (constant S_ .f32 0x00000000#32)) (broadcastInDim S550000x1 ![0] bcast_S550000_S550000x1_0 dst) (broadcastInDim S550000 ![] bcast_S_S550000 (constant S_ .f32 0x3F800000#32)))

/-- Per edge: dis at its source times dis at its destination. -/
def normOfR (src dst : IVec S550000 32) : FVec Ideal S550000 .f32 :=
  mulf (Host.gather gather_S50000_S550000x1_S550000_n_0_n_n_0_1_1 (disR dst) (broadcastInDim S550000x1 ![0] bcast_S550000_S550000x1_0 (wrapR src))) (Host.gather gather_S50000_S550000x1_S550000_n_0_n_n_0_1_1 (disR dst) (broadcastInDim S550000x1 ![0] bcast_S550000_S550000x1_0 (wrapR dst)))

/-- The rows of h at the edges' sources, scaled by norm, summed onto the destinations' rows. -/
def aggOfR (src dst : IVec S550000 32) (norm : FVec Ideal S550000 .f32) (h : FVec Ideal S50000x128 .f32) : FVec Ideal S50000x128 .f32 :=
  Host.scatterAdd scatter_S50000x128_S550000x1_S550000x128_1_0_0_1 (broadcastInDim S50000x128 ![] bcast_S_S50000x128 (constant S_ .f32 0x00000000#32)) (broadcastInDim S550000x1 ![0] bcast_S550000_S550000x1_0 dst) (mulf (Host.gather gather_S50000x128_S550000x1_S550000x128_1_0_n_n_0_1_1128 h (broadcastInDim S550000x1 ![0] bcast_S550000_S550000x1_0 (wrapR src))) (broadcastInDim S550000x128 ![0, 1] bcast_S550000x1_S550000x128_0_1 (broadcastInDim S550000x1 ![0] bcast_S550000_S550000x1_0 norm)))

/-- The aggregation of h over the graph E. -/
def aggR (E : IVec S2x500000 32) (h : FVec Ideal S50000x128 .f32) : FVec Ideal S50000x128 .f32 :=
  aggOfR (srcR E) (dstR E) (normOfR (srcR E) (dstR E)) h

end Cert.ReferenceIdeal.Hand

end
-- ==== Proof.RefEmb.lean ====
/-
  The reference's lookup read at an element. It is a gather of table rows by the ids, a negative id first moved up by
  512 and the start row clamped into the table: for an id already in 0 … 511 neither step changes anything, so
  element (r, j) is the table at (id r, j).
-/
import proofs.«415212_j29437705847415_3_alg».proof.Proof.RefStages
import proofs.«415212_j29437705847415_3_alg».proof.Proof.Spec
import proofs.«415212_j29437705847415_3_alg».proof.Proof.LibRowOps
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.ReferenceIdeal.Hand

open Cert.ReferenceIdeal

variable [Cert.ReferenceIdeal.Facts]
open Cert.ReferenceIdeal.Facts₀ Cert.ReferenceIdeal.Facts

/-- A word below 512 reads the same signed and unsigned. -/
theorem toInt_of_small (a : BitVec 32) (ha : a.toNat < 512) : a.toInt = a.toNat := by
  rw [BitVec.toInt_eq_msb_cond, BitVec.msb_eq_false_iff_two_mul_lt.mpr (by omega)]
  simp

/-- An id in 0 … 511 is not below zero as a signed word. -/
theorem slt_zero_of_small (a : BitVec 32) (ha : a.toNat < 512) : IntOp.cmpi .slt a 0#32 = 0#1 := by
  have hti := toInt_of_small a ha
  have h0 : (0#32 : BitVec 32).toInt = 0 := by decide
  have hs : a.slt 0#32 = false := by
    unfold BitVec.slt
    rw [hti, h0]
    exact decide_eq_false (by omega)
  show BitVec.ofBool (a.slt 0#32) = 0#1
  rw [hs]
  rfl

/-- The start word the gather reads for row r: an id in 0 … 511 is left as it is. -/
theorem startWord_apply (ids : IVec S50000 32) (r : Fin 50000) (hr : (ids (ix1 r)).toNat < 512) :
    broadcastInDim S50000x1 ![0] bcast_S50000_S50000x1_0
        (select (cmpi .slt ids (broadcastInDim S50000 ![] bcast_S_S50000 (constantI S_ 32 0#32)))
          (addi ids (broadcastInDim S50000 ![] bcast_S_S50000 (constantI S_ 32 512#32))) ids) (ix2 r (0 : Fin 1))
      = ids (ix1 r) := by
  rw [broadcastInDim_apply ![0] bcast_S50000_S50000x1_0 _ (ix2 r (0 : Fin 1)) (ix1 r) (fun a => by
        match a with
        | ⟨0, _⟩ => rfl),
    select_apply]
  show Scalar.select (IntOp.cmpi .slt (ids (ix1 r)) (broadcastInDim S50000 ![] bcast_S_S50000 (constantI S_ 32 0#32) (ix1 r))) _ _ = _
  rw [broadcastInDim_apply ![] bcast_S_S50000 _ (ix1 r) ix0 (fun a => a.elim0), constantI_apply, slt_zero_of_small _ hr, select_zero]

/-- The gather of table rows at (r, j), when the start word of row r is a word w below 512: the table at (w, j).
    The printed dimension numbers are those of a row gather, which reads the table at the start word read signed
    and clamped to 511: for w below 512 that is w itself. -/
theorem gather_row (emb : FVec Ideal S512x128 .f32) (idx : IVec S50000x1 32) (r : Fin 50000) (j : Fin 128) (w : BitVec 32)
    (hw : idx (ix2 r (0 : Fin 1)) = w) (hlt : w.toNat < 512) :
    Host.gather gather_S512x128_S50000x1_S50000x128_1_0_n_n_0_1_1128 emb idx (ix2 r j)
      = emb (ix2 (⟨w.toNat % 512, Nat.mod_lt _ (by decide)⟩ : Fin 512) j) := by
  subst hw
  have hrec : gather_S512x128_S50000x1_S50000x128_1_0_n_n_0_1_1128 = Idealize.ShloMosaic.RowOps.rowGather 512 50000 128 gather_S512x128_S50000x1_S50000x128_1_0_n_n_0_1_1128_wf := rfl
  rw [hrec, Idealize.ShloMosaic.RowOps.rowGather_apply (by decide)]
  refine congrArg emb (funext fun a => Fin.ext ?_)
  match a with
  | ⟨0, _⟩ =>
    show min (idx (ix2 r (0 : Fin 1))).toInt.toNat (512 - 1) = (idx (ix2 r (0 : Fin 1))).toNat % 512
    rw [toInt_of_small _ hlt, Int.toNat_natCast, Nat.mod_eq_of_lt hlt]
    omega
  | ⟨1, _⟩ => rfl

/-- With every id in 0 … 511 the reference's lookup is the table row of each id. -/
theorem refEmb_eq (ids : IVec S50000 32) (emb : FVec Ideal S512x128 .f32)
    (h : ∀ r : Fin 50000, (ids (ix1 r)).toNat < 512) :
    refEmb ids emb = Cert.Gcn.embF (fun r => ids (ix1 r)) emb := by
  funext i
  obtain ⟨r, j, rfl⟩ : ∃ (r : Fin 50000) (j : Fin 128), i = ix2 r j := ⟨i 0, i 1, eq_ix2 i⟩
  unfold refEmb
  exact gather_row emb _ r j (ids (ix1 r)) (startWord_apply ids r (h r)) (h r)

end Cert.ReferenceIdeal.Hand

end
-- ==== Proof.RefLin.lean ====
/-
  The reference's projection read at an element: the host's matrix product contracts x's column axis with W's row
  axis, so element (r, j) is the sum over k of x(r, k) · W(k, j).
-/
import proofs.«415212_j29437705847415_3_alg».proof.Proof.RefStages
import proofs.«415212_j29437705847415_3_alg».proof.Proof.Spec
import proofs.«415212_j29437705847415_3_alg».proof.Proof.LibRowOps
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.ReferenceIdeal.Hand

open Cert.ReferenceIdeal

variable [Cert.ReferenceIdeal.Facts]
open Cert.ReferenceIdeal.Facts₀ Cert.ReferenceIdeal.Facts

/-- The left operand's row is the result's row: axis 0 is the left operand's one free axis. -/
theorem lhs_dot_S50000x128_S128x128_0 (j : S50000x128.Idx) (k : dot_S50000x128_S128x128_S50000x128_1_0_0_1_n_n.contr.Idx) :
    (dot_S50000x128_S128x128_S50000x128_1_0_0_1_n_n.lhsIdx j k 0).val = (j 0).val := by
  unfold DotDims.lhsIdx
  rw [dif_neg (show ¬ ((0 : Fin S50000x128.rank) ∈ dot_S50000x128_S128x128_S50000x128_1_0_0_1_n_n.lhsBatch) from List.not_mem_nil),
    dif_pos (show (0 : Fin S50000x128.rank) ∈ dot_S50000x128_S128x128_S50000x128_1_0_0_1_n_n.lhsNonContracting from List.mem_singleton.mpr rfl)]
  rfl

/-- The left operand's column is the contraction position: axis 1 is the one contracted. -/
theorem lhs_dot_S50000x128_S128x128_1 (j : S50000x128.Idx) (k : dot_S50000x128_S128x128_S50000x128_1_0_0_1_n_n.contr.Idx) :
    (dot_S50000x128_S128x128_S50000x128_1_0_0_1_n_n.lhsIdx j k 1).val = (k ⟨0, Nat.one_pos⟩).val :=
  dot_S50000x128_S128x128_S50000x128_1_0_0_1_n_n.lhsIdx_val_of_single (cl := 1) rfl j k

/-- The right operand's row is the contraction position: axis 0 is the one contracted. -/
theorem rhs_dot_S50000x128_S128x128_0 (j : S50000x128.Idx) (k : dot_S50000x128_S128x128_S50000x128_1_0_0_1_n_n.contr.Idx) :
    (dot_S50000x128_S128x128_S50000x128_1_0_0_1_n_n.rhsIdx j k 0).val = (k ⟨0, Nat.one_pos⟩).val :=
  dot_S50000x128_S128x128_S50000x128_1_0_0_1_n_n.rhsIdx_val_of_single (cr := 0) rfl j k

/-- The right operand's column is the result's column: axis 1 is the right operand's one free axis. -/
theorem rhs_dot_S50000x128_S128x128_1 (j : S50000x128.Idx) (k : dot_S50000x128_S128x128_S50000x128_1_0_0_1_n_n.contr.Idx) :
    (dot_S50000x128_S128x128_S50000x128_1_0_0_1_n_n.rhsIdx j k 1).val = (j 1).val := by
  unfold DotDims.rhsIdx
  rw [dif_neg (show ¬ ((1 : Fin S128x128.rank) ∈ dot_S50000x128_S128x128_S50000x128_1_0_0_1_n_n.rhsBatch) from List.not_mem_nil),
    dif_pos (show (1 : Fin S128x128.rank) ∈ dot_S50000x128_S128x128_S50000x128_1_0_0_1_n_n.rhsNonContracting from List.mem_singleton.mpr rfl)]
  rfl

/-- The host's product of a 50000 × 128 array and a 128 × 128 matrix, at (r, j). -/
theorem refLin_apply (x : FVec Ideal S50000x128 .f32) (W : FVec Ideal S128x128 .f32) (r : Fin 50000) (j : Fin 128) :
    refLin x W (ix2 r j) = ∑ k : Fin 128, x (ix2 r k) * W (ix2 k j) := by
  unfold refLin
  refine (Ideal.dotGeneral_apply dot_S50000x128_S128x128_S50000x128_1_0_0_1_n_n none .single x W (ix2 r j)).trans ?_
  rw [← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have hl : dot_S50000x128_S128x128_S50000x128_1_0_0_1_n_n.lhsIdx (ix2 r j)
      ((contrEquiv1 dot_S50000x128_S128x128_S50000x128_1_0_0_1_n_n 128 rfl rfl).symm k) = ix2 r k := by
    funext d
    match d with
    | ⟨0, _⟩ => exact Fin.ext (lhs_dot_S50000x128_S128x128_0 _ _)
    | ⟨1, _⟩ => exact Fin.ext ((lhs_dot_S50000x128_S128x128_1 _ _).trans hk)
  have hr : dot_S50000x128_S128x128_S50000x128_1_0_0_1_n_n.rhsIdx (ix2 r j)
      ((contrEquiv1 dot_S50000x128_S128x128_S50000x128_1_0_0_1_n_n 128 rfl rfl).symm k) = ix2 k j := by
    funext d
    match d with
    | ⟨0, _⟩ => exact Fin.ext ((rhs_dot_S50000x128_S128x128_0 _ _).trans hk)
    | ⟨1, _⟩ => exact Fin.ext (rhs_dot_S50000x128_S128x128_1 _ _)
  rw [hl, hr]

/-- The reference's projection is the product, index by index. -/
theorem refLin_eq (x : FVec Ideal S50000x128 .f32) (W : FVec Ideal S128x128 .f32) :
    refLin x W = Cert.Gcn.linF x W := by
  funext i
  obtain ⟨r, j, rfl⟩ : ∃ (r : Fin 50000) (j : Fin 128), i = ix2 r j := ⟨i 0, i 1, eq_ix2 i⟩
  exact refLin_apply x W r j

end Cert.ReferenceIdeal.Hand

end
-- ==== Proof.RefLn.lean ====
/-
  The reference's residual layer norm read at an element. Its row is y = x + (agg + b), which is (x + agg) + b by
  associativity of + on the extended reals; its two sums start from the constant 0, which adds nothing; the broadcasts
  only copy a row's mean, its reciprocal square root, and the per-column g and β to every place they are used. Every
  remaining step is the same operation on the same numbers as in the specification.
-/
import proofs.«415212_j29437705847415_3_alg».proof.Proof.RefStages
import proofs.«415212_j29437705847415_3_alg».proof.Proof.Spec
import proofs.«415212_j29437705847415_3_alg».proof.Proof.LibRowOps
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.ReferenceIdeal.Hand

open Cert.ReferenceIdeal

variable [Cert.ReferenceIdeal.Facts]
open Cert.ReferenceIdeal.Facts₀ Cert.ReferenceIdeal.Facts

/-! ## The reference's broadcasts and its row sum at explicit coordinates -/

/-- The reference's quotient at an index is the extended reals' division of the elements. -/
theorem lnHostDivf_apply {s : Shape} {φ : FTy} (a b : FVec Ideal s φ) (i : s.Idx) :
    Host.divf a b i = Ideal.div (a i) (b i) := rfl

/-- The reference's reciprocal square root at an index is the extended reals' one of the element. -/
theorem lnHostRsqrt_apply {s : Shape} {φ : FTy} (a : FVec Ideal s φ) (i : s.Idx) :
    Host.rsqrt a i = Ideal.rsqrt (a i) := rfl

/-- A `[128]` vector spread over the rows (through `[1, 128]`) reads, at `(r, j)`, its entry `j`. -/
theorem lnBcastRow_apply (v : FVec Ideal S128 .f32) (r : Fin 50000) (j : Fin 128) :
    broadcastInDim S50000x128 ![0, 1] bcast_S1x128_S50000x128_0_1 (broadcastInDim S1x128 ![1] bcast_S128_S1x128_1 v) (ix2 r j)
      = v (ix1 j) := by
  refine (broadcastInDim_apply _ _ _ (ix2 r j) (ix2 (0 : Fin 1) j) fun a => ?_).trans
    (broadcastInDim_apply _ _ _ (ix2 (0 : Fin 1) j) (ix1 j) fun a => ?_)
  · match a with
    | ⟨0, _⟩ => rfl
    | ⟨1, _⟩ => rfl
  · match a with
    | ⟨0, _⟩ => rfl

/-- A `[50000, 1]` column spread over the 128 columns reads, at `(r, j)`, the column's entry of row `r`. -/
theorem lnBcastCol_apply (v : FVec Ideal S50000x1 .f32) (r : Fin 50000) (j : Fin 128) :
    broadcastInDim S50000x128 ![0, 1] bcast_S50000x1_S50000x128_0_1 v (ix2 r j) = v (ix2 r (0 : Fin 1)) := by
  refine broadcastInDim_apply _ _ _ (ix2 r j) (ix2 r (0 : Fin 1)) fun a => ?_
  match a with
  | ⟨0, _⟩ => rfl
  | ⟨1, _⟩ => rfl

/-- A `[50000]` vector kept as a column reads, at `(r, u)`, its entry `r`. -/
theorem lnBcastKeep_apply (v : FVec Ideal S50000 .f32) (r : Fin 50000) (u : Fin 1) :
    broadcastInDim S50000x1 ![0] bcast_S50000_S50000x1_0 v (ix2 r u) = v (ix1 r) := by
  refine broadcastInDim_apply _ _ _ (ix2 r u) (ix1 r) fun a => ?_
  match a with
  | ⟨0, _⟩ => rfl

/-- A scalar spread over a `[50000, 1]` column reads the scalar everywhere. -/
theorem lnBcastScalar_apply (w : BitVec 32) (r : Fin 50000) (u : Fin 1) :
    broadcastInDim S50000x1 ![] bcast_S_S50000x1 (constant (F := Ideal) S_ .f32 w) (ix2 r u) = Ideal.ofBits .f32 w :=
  broadcastInDim_apply _ _ _ (ix2 r u) ix0 fun a => a.elim0

/-- The reference's sum over the 128 columns, from the constant 0, at row `r`: the sum of that row's entries. -/
theorem lnRowSum_apply (z : FVec Ideal S50000x128 .f32) (r : Fin 50000) :
    Host.reduceAdd (F := Ideal) z (constant (F := Ideal) S_ .f32 0x00000000#32) reducesTo_S50000x128_S50000_d1 h_S_ (ix1 r)
      = ∑ k : Fin 128, z (ix2 r k) := by
  have hR : S50000x128.Reduces [1] S50000 := by decide
  show Ideal.hostReduceAdd reducesTo_S50000x128_S50000_d1 z (Ideal.ofBits .f32 0x00000000#32) (ix1 r) = _
  rw [Ideal.hostReduceAdd_single _ hR, Ideal.ofBits_zero_f32, zero_add]
  refine Finset.sum_congr rfl fun k _ => congrArg z ?_
  funext c
  match c with
  | ⟨0, _⟩ => rfl
  | ⟨1, _⟩ => rfl

/-- The reference's keepdims mean of a row: the row's sum divided by 128. -/
theorem lnColMean_apply (z : FVec Ideal S50000x128 .f32) (r : Fin 50000) (u : Fin 1) :
    Host.divf (F := Ideal) (broadcastInDim S50000x1 ![0] bcast_S50000_S50000x1_0
        (Host.reduceAdd (F := Ideal) z (constant (F := Ideal) S_ .f32 0x00000000#32) reducesTo_S50000x128_S50000_d1 h_S_))
      (broadcastInDim S50000x1 ![] bcast_S_S50000x1 (constant (F := Ideal) S_ .f32 0x43000000#32)) (ix2 r u)
      = Ideal.div (∑ k : Fin 128, z (ix2 r k)) Cert.Gcn.c128 := by
  rw [lnHostDivf_apply, lnBcastKeep_apply, lnBcastScalar_apply, lnRowSum_apply]

/-! ## The reference's stages at an element -/

/-- The reference's residual row at `(r, k)`, reassociated. -/
theorem refY_apply (x agg : FVec Ideal S50000x128 .f32) (b : FVec Ideal S128 .f32) (r : Fin 50000) (k : Fin 128) :
    refY x agg b (ix2 r k) = (x (ix2 r k) + agg (ix2 r k)) + b (ix1 k) := by
  unfold refY
  rw [addf_apply, addf_apply, lnBcastRow_apply]
  exact (add_assoc _ _ _).symm

/-- The reference's row mean at `(r, u)`. -/
theorem refMu_apply (y : FVec Ideal S50000x128 .f32) (r : Fin 50000) (u : Fin 1) :
    refMu y (ix2 r u) = Ideal.div (∑ k : Fin 128, y (ix2 r k)) Cert.Gcn.c128 := by
  unfold refMu
  exact lnColMean_apply y r u

/-- The reference's centred row at `(r, k)`. -/
theorem refD_apply (y : FVec Ideal S50000x128 .f32) (r : Fin 50000) (k : Fin 128) :
    refD y (ix2 r k) = y (ix2 r k) - Ideal.div (∑ k' : Fin 128, y (ix2 r k')) Cert.Gcn.c128 := by
  unfold refD
  rw [subf_apply, lnBcastCol_apply, refMu_apply]

/-- The reference's layer norm of rows `y` at `(r, j)`: the one-row layer norm of row `r` at column `j`. -/
theorem refLnOf_apply (y : FVec Ideal S50000x128 .f32) (g beta : FVec Ideal S128 .f32) (r : Fin 50000) (j : Fin 128) :
    refLnOf y g beta (ix2 r j)
      = Cert.Gcn.lnRow (fun k => y (ix2 r k)) (fun k => g (ix1 k)) (fun k => beta (ix1 k)) j := by
  unfold refLnOf Cert.Gcn.lnRow
  rw [addf_apply, mulf_apply, mulf_apply, subf_apply, lnBcastRow_apply, lnBcastRow_apply, lnBcastCol_apply, lnBcastCol_apply,
    refMu_apply, lnHostRsqrt_apply, addf_apply, lnColMean_apply, lnBcastScalar_apply]
  simp only [mulf_apply, refD_apply]

/-- The reference's residual layer norm is the specification's, index by index. -/
theorem refLn_eq (x agg : FVec Ideal S50000x128 .f32) (b g beta : FVec Ideal S128 .f32) :
    refLn x agg b g beta
      = Cert.Gcn.lnF x agg (fun k => b (ix1 k)) (fun k => g (ix1 k)) (fun k => beta (ix1 k)) := by
  funext i
  obtain ⟨r, j, rfl⟩ : ∃ (r : Fin 50000) (j : Fin 128), i = ix2 r j := ⟨i 0, i 1, eq_ix2 i⟩
  have hy : (fun k : Fin 128 => refY x agg b (ix2 r k))
      = fun k => (x (ix2 r k) + agg (ix2 r k)) + b (ix1 k) := funext fun k => refY_apply x agg b r k
  unfold refLn
  rw [refLnOf_apply, hy]
  rfl

end Cert.ReferenceIdeal.Hand

end
-- ==== Proof.RefValue.lean ====
/-
  The reference's result as one composition. Its run ends with the result at a term over named intermediate
  buffers; unfolded name by name that term is: the looked-up rows x₀; the first layer x₁ = layer norm of
  x₀ + (aggregate(x₀ · W₁) + b₁); the second layer = layer norm of x₁ + (aggregate(x₁ · W₂) + b₂) — the degree
  normalisation being recomputed for the second layer from the same edge list, hence the same. Each dense stage is
  then read index by index as the specification's function (the lookup under the ids' range).
-/
import proofs.«415212_j29437705847415_3_alg».proof.Proof.Gen.ReferenceIdeal.Run
import proofs.«415212_j29437705847415_3_alg».proof.Proof.RefStages
import proofs.«415212_j29437705847415_3_alg».proof.Proof.RefChain
import proofs.«415212_j29437705847415_3_alg».proof.Proof.RefEmb
import proofs.«415212_j29437705847415_3_alg».proof.Proof.RefLin
import proofs.«415212_j29437705847415_3_alg».proof.Proof.RefLn
import proofs.«415212_j29437705847415_3_alg».proof.Proof.Spec

noncomputable section

open Idealize.ShloMosaic Idealize.ShloMosaic.TcCoe Idealize.ShloMosaic.ValueIdx Idealize.SL.Sem Idealize.ShloMosaic.StableHlo

namespace Cert.ReferenceIdeal.Hand

open Cert.ReferenceIdeal Cert.ReferenceIdeal.Gen Cert.ReferenceIdeal.Value

/-- The two-layer network's value from its eleven arguments, the aggregation being the reference's chain. -/
def refValue (ids : IVec S50000 32) (E : IVec S2x500000 32) (emb : FVec Ideal S512x128 .f32)
    (W1 : FVec Ideal S128x128 .f32) (b1 : FVec Ideal S128 .f32) (W2 : FVec Ideal S128x128 .f32) (b2 g1 beta1 g2 beta2 : FVec Ideal S128 .f32) :
    FVec Ideal S50000x128 .f32 :=
  Cert.Gcn.lnF
    (Cert.Gcn.lnF (Cert.Gcn.embF (fun r => ids (ix1 r)) emb)
      (aggR E (Cert.Gcn.linF (Cert.Gcn.embF (fun r => ids (ix1 r)) emb) W1))
      (fun k => b1 (ix1 k)) (fun k => g1 (ix1 k)) (fun k => beta1 (ix1 k)))
    (aggR E (Cert.Gcn.linF
      (Cert.Gcn.lnF (Cert.Gcn.embF (fun r => ids (ix1 r)) emb)
        (aggR E (Cert.Gcn.linF (Cert.Gcn.embF (fun r => ids (ix1 r)) emb) W1))
        (fun k => b1 (ix1 k)) (fun k => g1 (ix1 k)) (fun k => beta1 (ix1 k))) W2))
    (fun k => b2 (ix1 k)) (fun k => g2 (ix1 k)) (fun k => beta2 (ix1 k))

/-! ## The run's named intermediate terms, read as the stages

Each named term of the run is one stage applied to earlier named terms: the equations below say which, one
definition opened at a time. V0 is any valuation of the buffers (the run uses the launch contents). -/

section Chain
variable (V0 : Valuation τ sig (Elt Ideal))

/-- The sources with the self loops appended. -/
theorem res_v12 : (res_main_v12 V0 : IVec S550000 32) = srcR (V0 (Proc.devRef .tc main_arg1)) := rfl
/-- The destinations with the self loops appended. -/
theorem res_v13 : (res_main_v13 V0 : IVec S550000 32) = dstR (V0 (Proc.devRef .tc main_arg1)) := rfl
/-- The second layer recomputes the same sources … -/
theorem res_v77 : (res_main_v77 V0 : IVec S550000 32) = srcR (V0 (Proc.devRef .tc main_arg1)) := rfl
/-- … and the same destinations. -/
theorem res_v78 : (res_main_v78 V0 : IVec S550000 32) = dstR (V0 (Proc.devRef .tc main_arg1)) := rfl

/-- The degrees to the power −1/2. -/
theorem res_v18 : (res_main_v18 V0 : FVec Ideal S50000 .f32) = disR (dstR (V0 (Proc.devRef .tc main_arg1))) := by
  unfold res_main_v18
  rw [res_v13]
  rfl
/-- The second layer recomputes the same. -/
theorem res_v83 : (res_main_v83 V0 : FVec Ideal S50000 .f32) = disR (dstR (V0 (Proc.devRef .tc main_arg1))) := by
  unfold res_main_v83
  rw [res_v78]
  rfl

/-- The looked-up rows. -/
theorem res_v10 : (res_main_v10 V0 : FVec Ideal S50000x128 .f32) = refEmb (V0 (Proc.devRef .tc main_arg0)) (V0 (Proc.devRef .tc main_arg2)) := rfl

/-- The first layer's residual rows. -/
theorem res_v51 : (res_main_v51 V0 : FVec Ideal S50000x128 .f32)
    = refY (res_main_v10 V0) (aggR (V0 (Proc.devRef .tc main_arg1)) (refLin (res_main_v10 V0) (V0 (Proc.devRef .tc main_arg3)))) (V0 (Proc.devRef .tc main_arg4)) := by
  unfold res_main_v51 aggR
  rw [res_v12, res_v13, res_v18]
  generalize srcR (V0 (Proc.devRef .tc main_arg1)) = s
  generalize dstR (V0 (Proc.devRef .tc main_arg1)) = d
  generalize res_main_v10 V0 = x
  rfl
/-- Their row means. -/
theorem res_v55 : (res_main_v55 V0 : FVec Ideal S50000x1 .f32) = refMu (res_main_v51 V0) := rfl
/-- The centred rows. -/
theorem res_v57 : (res_main_v57 V0 : FVec Ideal S50000x128 .f32) = refD (res_main_v51 V0) := by
  unfold res_main_v57
  rw [res_v55]
  rfl
/-- The first layer's output as the layer norm of its residual rows. -/
theorem res_v75_of_rows : (res_main_v75 V0 : FVec Ideal S50000x128 .f32)
    = refLnOf (res_main_v51 V0) (V0 (Proc.devRef .tc main_arg7)) (V0 (Proc.devRef .tc main_arg8)) := by
  unfold res_main_v75
  rw [res_v55, res_v57]
  generalize res_main_v51 V0 = y
  rfl
/-- The first layer's output. -/
theorem res_v75 : (res_main_v75 V0 : FVec Ideal S50000x128 .f32)
    = refLn (res_main_v10 V0) (aggR (V0 (Proc.devRef .tc main_arg1)) (refLin (res_main_v10 V0) (V0 (Proc.devRef .tc main_arg3)))) (V0 (Proc.devRef .tc main_arg4)) (V0 (Proc.devRef .tc main_arg7)) (V0 (Proc.devRef .tc main_arg8)) := by
  rw [res_v75_of_rows, res_v51]
  rfl

/-- The second layer's residual rows. -/
theorem res_v116 : (res_main_v116 V0 : FVec Ideal S50000x128 .f32)
    = refY (res_main_v75 V0) (aggR (V0 (Proc.devRef .tc main_arg1)) (refLin (res_main_v75 V0) (V0 (Proc.devRef .tc main_arg5)))) (V0 (Proc.devRef .tc main_arg6)) := by
  unfold res_main_v116 aggR
  rw [res_v77, res_v78, res_v83]
  generalize srcR (V0 (Proc.devRef .tc main_arg1)) = s
  generalize dstR (V0 (Proc.devRef .tc main_arg1)) = d
  generalize res_main_v75 V0 = x
  rfl
/-- Their row means. -/
theorem res_v120 : (res_main_v120 V0 : FVec Ideal S50000x1 .f32) = refMu (res_main_v116 V0) := rfl
/-- The centred rows. -/
theorem res_v122 : (res_main_v122 V0 : FVec Ideal S50000x128 .f32) = refD (res_main_v116 V0) := by
  unfold res_main_v122
  rw [res_v120]
  rfl
/-- The run's result term as the layer norm of the second layer's residual rows. -/
theorem result_of_rows : (addf (mulf (mulf (subf (res_main_v116 V0) (broadcastInDim S50000x128 ![0, 1] bcast_S50000x1_S50000x128_0_1 (res_main_v120 V0))) (broadcastInDim S50000x128 ![0, 1] bcast_S50000x1_S50000x128_0_1 (Host.rsqrt (addf (Host.divf (broadcastInDim S50000x1 ![0] bcast_S50000_S50000x1_0 (Host.reduceAdd (mulf (res_main_v122 V0) (res_main_v122 V0)) (constant S_ .f32 0x00000000#32) reducesTo_S50000x128_S50000_d1 h_S_)) (broadcastInDim S50000x1 ![] bcast_S_S50000x1 (constant S_ .f32 0x43000000#32))) (broadcastInDim S50000x1 ![] bcast_S_S50000x1 (constant S_ .f32 0x3727C5AC#32)))))) (broadcastInDim S50000x128 ![0, 1] bcast_S1x128_S50000x128_0_1 (broadcastInDim S1x128 ![1] bcast_S128_S1x128_1 (V0 (Proc.devRef .tc main_arg9))))) (broadcastInDim S50000x128 ![0, 1] bcast_S1x128_S50000x128_0_1 (broadcastInDim S1x128 ![1] bcast_S128_S1x128_1 (V0 (Proc.devRef .tc main_arg10)))) : FVec Ideal S50000x128 .f32)
    = refLnOf (res_main_v116 V0) (V0 (Proc.devRef .tc main_arg9)) (V0 (Proc.devRef .tc main_arg10)) := by
  rw [res_v120, res_v122]
  generalize res_main_v116 V0 = y
  rfl
/-- The run's result term as the second layer of the first layer. -/
theorem result_layers : (addf (mulf (mulf (subf (res_main_v116 V0) (broadcastInDim S50000x128 ![0, 1] bcast_S50000x1_S50000x128_0_1 (res_main_v120 V0))) (broadcastInDim S50000x128 ![0, 1] bcast_S50000x1_S50000x128_0_1 (Host.rsqrt (addf (Host.divf (broadcastInDim S50000x1 ![0] bcast_S50000_S50000x1_0 (Host.reduceAdd (mulf (res_main_v122 V0) (res_main_v122 V0)) (constant S_ .f32 0x00000000#32) reducesTo_S50000x128_S50000_d1 h_S_)) (broadcastInDim S50000x1 ![] bcast_S_S50000x1 (constant S_ .f32 0x43000000#32))) (broadcastInDim S50000x1 ![] bcast_S_S50000x1 (constant S_ .f32 0x3727C5AC#32)))))) (broadcastInDim S50000x128 ![0, 1] bcast_S1x128_S50000x128_0_1 (broadcastInDim S1x128 ![1] bcast_S128_S1x128_1 (V0 (Proc.devRef .tc main_arg9))))) (broadcastInDim S50000x128 ![0, 1] bcast_S1x128_S50000x128_0_1 (broadcastInDim S1x128 ![1] bcast_S128_S1x128_1 (V0 (Proc.devRef .tc main_arg10)))) : FVec Ideal S50000x128 .f32)
    = refLn (res_main_v75 V0) (aggR (V0 (Proc.devRef .tc main_arg1)) (refLin (res_main_v75 V0) (V0 (Proc.devRef .tc main_arg5)))) (V0 (Proc.devRef .tc main_arg6)) (V0 (Proc.devRef .tc main_arg9)) (V0 (Proc.devRef .tc main_arg10)) := by
  rw [result_of_rows, res_v116]
  rfl

/-- Under the ids' range the run's result term is the specification's composition of the argument arrays. -/
theorem result_value (hr : ∀ r : Fin 50000, (((V0 (Proc.devRef .tc main_arg0)) : IVec S50000 32) (ix1 r)).toNat < 512) :
    (addf (mulf (mulf (subf (res_main_v116 V0) (broadcastInDim S50000x128 ![0, 1] bcast_S50000x1_S50000x128_0_1 (res_main_v120 V0))) (broadcastInDim S50000x128 ![0, 1] bcast_S50000x1_S50000x128_0_1 (Host.rsqrt (addf (Host.divf (broadcastInDim S50000x1 ![0] bcast_S50000_S50000x1_0 (Host.reduceAdd (mulf (res_main_v122 V0) (res_main_v122 V0)) (constant S_ .f32 0x00000000#32) reducesTo_S50000x128_S50000_d1 h_S_)) (broadcastInDim S50000x1 ![] bcast_S_S50000x1 (constant S_ .f32 0x43000000#32))) (broadcastInDim S50000x1 ![] bcast_S_S50000x1 (constant S_ .f32 0x3727C5AC#32)))))) (broadcastInDim S50000x128 ![0, 1] bcast_S1x128_S50000x128_0_1 (broadcastInDim S1x128 ![1] bcast_S128_S1x128_1 (V0 (Proc.devRef .tc main_arg9))))) (broadcastInDim S50000x128 ![0, 1] bcast_S1x128_S50000x128_0_1 (broadcastInDim S1x128 ![1] bcast_S128_S1x128_1 (V0 (Proc.devRef .tc main_arg10)))) : FVec Ideal S50000x128 .f32)
      = refValue (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  have e0 : (res_main_v10 V0 : FVec Ideal S50000x128 .f32) = Cert.Gcn.embF (fun r => (V0 (Proc.devRef .tc main_arg0)) (ix1 r)) (V0 (Proc.devRef .tc main_arg2)) :=
    (res_v10 V0).trans (refEmb_eq _ _ hr)
  have e1 : (res_main_v75 V0 : FVec Ideal S50000x128 .f32)
      = Cert.Gcn.lnF (Cert.Gcn.embF (fun r => (V0 (Proc.devRef .tc main_arg0)) (ix1 r)) (V0 (Proc.devRef .tc main_arg2)))
          (aggR (V0 (Proc.devRef .tc main_arg1)) (Cert.Gcn.linF (Cert.Gcn.embF (fun r => (V0 (Proc.devRef .tc main_arg0)) (ix1 r)) (V0 (Proc.devRef .tc main_arg2))) (V0 (Proc.devRef .tc main_arg3))))
          (fun k => (V0 (Proc.devRef .tc main_arg4)) (ix1 k)) (fun k => (V0 (Proc.devRef .tc main_arg7)) (ix1 k)) (fun k => (V0 (Proc.devRef .tc main_arg8)) (ix1 k)) := by
    rw [res_v75, e0, refLin_eq, refLn_eq]
  rw [result_layers, e1, refLin_eq, refLn_eq]
  rfl

end Chain

/-- The reference's run with its result named: under the ids' range the result buffer ends at `refValue` of the
    argument arrays, and the arguments end unchanged. -/
theorem run_value (m : (ℓ : Loc nD τ sig) → Buf (Elt Ideal) ℓ) (ρ : Dev nD → PrngReg)
    (hids : ∀ (c : Dev nD) (r : Fin 50000), ((m ((c.tc : Thread nD τ).loc main_arg0) : IVec S50000 32) (ix1 r)).toNat < 512) :
    θ_run defs (onTc (τ := τ) (main (F := Ideal))) ⟨m, fun _ => 0, ρ⟩ fun r => ∀ c : Dev nD,
      r.2.mem ((c.tc : Thread nD τ).loc main_v140)
          = refValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (result_value (launchContents m c) (hids c)), (h c).2⟩)
    (Cert.ReferenceIdeal.Value.run (F := Ideal) m ρ)

end Cert.ReferenceIdeal.Hand

end
-- ==== Proof.PreRange.lean ====
/-
  The precondition's last conjunct read back: when the printed predicate is all ones, every id is at least 0 and
  below 512 as a signed word, so its unsigned value is below 512.
-/
import proofs.«415212_j29437705847415_3_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

open Idealize.ShloMosaic Idealize.ShloMosaic.ValueIdx

namespace Cert.Pre_finite_inputs.Hand

open Cert.Pre_finite_inputs

variable [Cert.Pre_finite_inputs.Facts]

/-- A word that is at least 0 and below 512 as a signed word is below 512 as an unsigned word. -/
theorem toNat_lt_of_signed_range (a : BitVec 32) (h0 : IntOp.cmpi .sge a 0#32 = 1#1) (h1 : IntOp.cmpi .slt a 512#32 = 1#1) :
    a.toNat < 512 := by
  have hge := IntOp.cmpi_sge.mp h0
  have hlt := IntOp.cmpi_slt.mp h1
  have z : (0#32 : BitVec 32).toInt = 0 := by decide
  have c : (512#32 : BitVec 32).toInt = 512 := by decide
  rw [z] at hge
  rw [c] at hlt
  rw [BitVec.toInt_eq_toNat_cond] at hge hlt
  have := a.isLt
  split at hge <;> omega

/-- Under the precondition every id lies in 0 … 511. -/
theorem ids_in_range {F : FTy → Type} [FloatOps F] (a0 : IVec S50000 32) (a1 : IVec S2x500000 32) (a2 : FVec F S512x128 .f32)
    (a3 : FVec F S128x128 .f32) (a4 : FVec F S128 .f32) (a5 : FVec F S128x128 .f32) (a6 a7 a8 a9 a10 : FVec F S128 .f32)
    (h : Cert.Pre_finite_inputs.fn (F := F) a0 a1 a2 a3 a4 a5 a6 a7 a8 a9 a10 = fun _ => 1#1) :
    ∀ r : Fin 50000, (a0 (ix1 r)).toNat < 512 := by
  intro r
  have h0 := congrFun h ix0
  dsimp only [fn, fn_part1, fn_part2] at h0
  -- the last conjunct: the reduction by "and" over all ids of (id ≥ 0) ∧ (id < 512)
  have hall := (IntOp.andi_eq_one.mp h0).2
  -- the scalar shape has one index
  haveI : Subsingleton S_.Idx := ⟨fun a b => funext fun d => d.elim0⟩
  have hr := Host.reduce_andi_all _ _ Facts.reducesTo_S50000_S_d0 Facts.h_S_ ix0 hall (ix1 r)
  -- at row r the two comparisons against the broadcast constants
  have hr' : IntOp.andi (IntOp.cmpi .sge (a0 (ix1 r)) 0#32) (IntOp.cmpi .slt (a0 (ix1 r)) 512#32) = 1#1 := hr
  obtain ⟨hge, hlt⟩ := IntOp.andi_eq_one.mp hr'
  exact toNat_lt_of_signed_range _ hge hlt

end Cert.Pre_finite_inputs.Hand

end
-- ==== Proof.lean ====
/-
  The two-layer graph convolution (lookup, then twice: projection, neighbourhood aggregation, residual layer norm) as a
  Pallas program of five pipelines against its plain reference, equal over the extended reals for ids in 0 … 511.

  The kernel side. The run ends with the result buffer at the last boundary's contents, which, walked back through the
  five pipelines and the three host stretches, is: layer norm of x₁ + aggregate(x₁ · W₂) + b₂, with
  x₁ = layer norm of x₀ + aggregate(x₀ · W₁) + b₁ and x₀ the table rows numbered by the ids. Each pipeline's blocks
  are blocks of one whole-array function (a row's lookup, product and layer norm depend on that row only) and cover
  the array. The lookup is a product with a 0/1 matrix whose one nonzero entry per row picks the id's table row; this
  is where the ids' range is used.
  The reference side. Its run ends at the same composition: its gather is the same table row for an id in range, its
  matrix product the same sum, its layer norm the same function of the row x + (agg + b) = (x + agg) + b.
  The aggregation (degree normalisation, gather of source rows, scatter-add onto destination rows) is the same chain
  of host operations in both programs, applied to equal arguments; it is carried as one function and never opened.
  The three frames are the generated ones (the reference's: its generated run with the result dropped); the
  idealization rewrote nothing, so there is nothing to preserve.
-/
import proofs.«415212_j29437705847415_3_alg».proof.Defs
import proofs.«415212_j29437705847415_3_alg».proof.Proof.Gen.Kernel
import proofs.«415212_j29437705847415_3_alg».proof.Proof.Gen.Kernel.Skeleton
import proofs.«415212_j29437705847415_3_alg».proof.Proof.Gen.Kernel.Launch
import proofs.«415212_j29437705847415_3_alg».proof.Proof.Gen.Kernel.Points
import proofs.«415212_j29437705847415_3_alg».proof.Proof.Gen.Kernel.Frame
import proofs.«415212_j29437705847415_3_alg».proof.Proof.Gen.KernelIdeal
import proofs.«415212_j29437705847415_3_alg».proof.Proof.Gen.KernelIdeal.Skeleton
import proofs.«415212_j29437705847415_3_alg».proof.Proof.Gen.KernelIdeal.Launch
import proofs.«415212_j29437705847415_3_alg».proof.Proof.Gen.KernelIdeal.Points
import proofs.«415212_j29437705847415_3_alg».proof.Proof.Gen.KernelIdeal.Frame
import proofs.«415212_j29437705847415_3_alg».proof.Proof.Gen.ReferenceIdeal
import proofs.«415212_j29437705847415_3_alg».proof.Proof.Gen.ReferenceIdeal.Run
import proofs.«415212_j29437705847415_3_alg».proof.Proof.Gen.Pre_finite_inputs
import proofs.«415212_j29437705847415_3_alg».proof.Proof.KernelRun
import proofs.«415212_j29437705847415_3_alg».proof.Proof.KernelValue
import proofs.«415212_j29437705847415_3_alg».proof.Proof.RefValue
import proofs.«415212_j29437705847415_3_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

/-- The two programs' aggregation chains are one function: the same host operations with the same dimension numbers. -/
theorem agg_eq (E : IVec Cert.KernelIdeal.S2x500000 32) (h : FVec Ideal Cert.KernelIdeal.S50000x128 .f32) :
    Cert.KernelIdeal.Hand.aggK E h = Cert.ReferenceIdeal.Hand.aggR E h := rfl

/-- So the two compositions are one function of the eleven arguments. -/
theorem value_eq (ids : IVec Cert.KernelIdeal.S50000 32) (E : IVec Cert.KernelIdeal.S2x500000 32) (emb : FVec Ideal Cert.KernelIdeal.S512x128 .f32)
    (W1 : FVec Ideal Cert.KernelIdeal.S128x128 .f32) (b1 : FVec Ideal Cert.KernelIdeal.S128 .f32) (W2 : FVec Ideal Cert.KernelIdeal.S128x128 .f32)
    (b2 g1 beta1 g2 beta2 : FVec Ideal Cert.KernelIdeal.S128 .f32) :
    Cert.KernelIdeal.Hand.kernelValue ids E emb W1 b1 W2 b2 g1 beta1 g2 beta2
      = Cert.ReferenceIdeal.Hand.refValue ids E emb W1 b1 W2 b2 g1 beta1 g2 beta2 := by
  unfold Cert.KernelIdeal.Hand.kernelValue Cert.ReferenceIdeal.Hand.refValue
  simp only [agg_eq]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the one composition of the (agreeing) arguments. -/
theorem algebraic : Cert.algebraic_KernelIdeal_ReferenceIdeal := by
  intro m ρ m' ρ' hpre hagree
  have hids : ∀ (c : Dev Cert.KernelIdeal.nD) (r : Fin 50000),
      ((m ((c.tc : Thread Cert.KernelIdeal.nD Cert.KernelIdeal.τ).loc Cert.KernelIdeal.main_arg0) : IVec Cert.KernelIdeal.S50000 32) (ix1 r)).toNat < 512 :=
    fun c => Cert.Pre_finite_inputs.Hand.ids_in_range (F := Ideal) _ _ _ _ _ _ _ _ _ _ _ (hpre c)
  refine ⟨fun c => Cert.KernelIdeal.Hand.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.W8_v64 m ρ c (hids c)), (h c).2⟩)
      (Cert.KernelIdeal.Gen.run_result m ρ)
  · have hids' : ∀ (c : Dev Cert.ReferenceIdeal.nD) (r : Fin 50000),
        ((m' ((c.tc : Thread Cert.ReferenceIdeal.nD Cert.ReferenceIdeal.τ).loc Cert.ReferenceIdeal.main_arg0) : IVec Cert.ReferenceIdeal.S50000 32) (ix1 r)).toNat < 512 :=
      fun c r => by rw [(hagree c).1]; exact hids c r
    refine (θ_run Cert.ReferenceIdeal.defs _ _).mono (fun r h c => ⟨(h c).1.trans ?_, (h c).2⟩)
      (Cert.ReferenceIdeal.Hand.run_value m' ρ' hids')
    obtain ⟨a0, a1, a2, a3, a4, a5, a6, a7, a8, a9, a10⟩ := hagree c
    rw [a0, a1, a2, a3, a4, a5, a6, a7, a8, a9, a10]
    exact (value_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
